-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x800000 : Shape := ⟨2, ![2, 800000]⟩
abbrev S64x64 : Shape := ⟨2, ![64, 64]⟩
abbrev S64 : Shape := ⟨1, ![64]⟩
abbrev S64x128 : Shape := ⟨2, ![64, 128]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_

variable [Facts]

def fn_part1 {F : FTy → Type} [FloatOps F] (main_arg5 : FVec F S64 .f32) (main_arg6 : FVec F S64x128 .f32) (main_arg7 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x128 .f32 := Host.absf main_arg6
  let main_cst_8 : FVec F S_ .f32 := constant S_ .f32 0x7F800000#32
  let main_v25 : FVec F S64x128 .f32 := broadcastInDim S64x128 ![] bcast_S_S64x128 main_cst_8
  let main_v26 : IVec S64x128 1 := cmpf .olt main_v24 main_v25
  let main_c_9 : IVec S_ 1 := constantI S_ 1 1#1
  let main_v27 : IVec S_ 1 := (fun x v => Host.reduce IntOp.andi x v reducesTo_S64x128_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x64 .f32) (main_arg1 : IVec S2x800000 32) (main_arg2 : FVec F S64x64 .f32) (main_arg3 : FVec F S64 .f32) (main_arg4 : FVec F S64x64 .f32) (main_arg5 : FVec F S64 .f32) (main_arg6 : FVec F S64x128 .f32) (main_arg7 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_v13 main_v16
-- ==== Kernel.lean ====
abbrev S100000x64 : Shape := ⟨2, ![100000, 64]⟩
abbrev S2x800000 : Shape := ⟨2, ![2, 800000]⟩
abbrev S64x64 : Shape := ⟨2, ![64, 64]⟩
abbrev S64 : Shape := ⟨1, ![64]⟩
abbrev S64x128 : Shape := ⟨2, ![64, 128]⟩
abbrev S1x400000 : Shape := ⟨2, ![1, 400000]⟩
abbrev S400000 : Shape := ⟨1, ![400000]⟩
abbrev S1x800000 : Shape := ⟨2, ![1, 800000]⟩
abbrev S800000 : Shape := ⟨1, ![800000]⟩
abbrev S_ : Shape := ⟨0, ![]⟩
abbrev S400000x1 : Shape := ⟨2, ![400000, 1]⟩
abbrev S400000x64 : Shape := ⟨2, ![400000, 64]⟩
abbrev S100000x1 : Shape := ⟨2, ![100000, 1]⟩
abbrev S800000x1 : Shape := ⟨2, ![800000, 1]⟩
abbrev S800000x64 : Shape := ⟨2, ![800000, 64]⟩
abbrev S1x64 : Shape := ⟨2, ![1, 64]⟩
abbrev S5000x64 : Shape := ⟨2, ![5000, 64]⟩
abbrev S5000x1 : Shape := ⟨2, ![5000, 1]⟩

abbrev nBuf : Space → Nat
  | .hbm => 60
  | .vmem => 17
  | .smem => 0
  | _ => 0

abbrev bufTy : (tb : Table) → Fin (tcTables nBuf tb) → BufTy
  | .hbm, ⟨0, _⟩ => ⟨S100000x64, .f32⟩
  | .hbm, ⟨1, _⟩ => ⟨S2x800000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x128, .f32⟩
  | .hbm, ⟨7, _⟩ => ⟨S64, .f32⟩
  | .hbm, ⟨8, _⟩ => ⟨S1x400000, .i32⟩
  | .hbm, ⟨9, _⟩ => ⟨S400000, .i32⟩
  | .hbm, ⟨10, _⟩ => ⟨S1x400000, .i32⟩
  | .hbm, ⟨11, _⟩ => ⟨S400000, .i32⟩
  | .hbm, ⟨12, _⟩ => ⟨S1x800000, .i32⟩
  | .hbm, ⟨13, _⟩ => ⟨S800000, .i32⟩
  | .hbm, ⟨14, _⟩ => ⟨S1x800000, .i32⟩
  | .hbm, ⟨15, _⟩ => ⟨S800000, .i32⟩
  | .hbm, ⟨16, _⟩ => ⟨S_, .i32⟩
  | .hbm, ⟨17, _⟩ => ⟨S400000, .i32⟩
  | .hbm, ⟨18, _⟩ => ⟨S400000, .i1⟩
  | .hbm, ⟨19, _⟩ => ⟨S_, .i32⟩
  | .hbm, ⟨20, _⟩ => ⟨S400000, .i32⟩
  | .hbm, ⟨21, _⟩ => ⟨S400000, .i32⟩
  | .hbm, ⟨22, _⟩ => ⟨S400000, .i32⟩
  | .hbm, ⟨23, _⟩ => ⟨S400000x1, .i32⟩
  | .hbm, ⟨24, _⟩ => ⟨S400000x64, .f32⟩
  | .hbm, ⟨25, _⟩ => ⟨S_, .f32⟩
  | .hbm, ⟨26, _⟩ => ⟨S100000x64, .f32⟩
  | .hbm, ⟨27, _⟩ => ⟨S400000x1, .i32⟩
  | .hbm, ⟨28, _⟩ => ⟨S100000x64, .f32⟩
  | .hbm, ⟨29, _⟩ => ⟨S_, .f32⟩
  | .hbm, ⟨30, _⟩ => ⟨S400000x1, .f32⟩
  | .hbm, ⟨31, _⟩ => ⟨S_, .f32⟩
  | .hbm, ⟨32, _⟩ => ⟨S100000x1, .f32⟩
  | .hbm, ⟨33, _⟩ => ⟨S400000x1, .i32⟩
  | .hbm, ⟨34, _⟩ => ⟨S100000x1, .f32⟩
  | .hbm, ⟨35, _⟩ => ⟨S_, .i32⟩
  | .hbm, ⟨36, _⟩ => ⟨S800000, .i32⟩
  | .hbm, ⟨37, _⟩ => ⟨S800000, .i1⟩
  | .hbm, ⟨38, _⟩ => ⟨S_, .i32⟩
  | .hbm, ⟨39, _⟩ => ⟨S800000, .i32⟩
  | .hbm, ⟨40, _⟩ => ⟨S800000, .i32⟩
  | .hbm, ⟨41, _⟩ => ⟨S800000, .i32⟩
  | .hbm, ⟨42, _⟩ => ⟨S800000x1, .i32⟩
  | .hbm, ⟨43, _⟩ => ⟨S800000x64, .f32⟩
  | .hbm, ⟨44, _⟩ => ⟨S_, .f32⟩
  | .hbm, ⟨45, _⟩ => ⟨S100000x64, .f32⟩
  | .hbm, ⟨46, _⟩ => ⟨S800000x1, .i32⟩
  | .hbm, ⟨47, _⟩ => ⟨S100000x64, .f32⟩
  | .hbm, ⟨48, _⟩ => ⟨S_, .f32⟩
  | .hbm, ⟨49, _⟩ => ⟨S800000x1, .f32⟩
  | .hbm, ⟨50, _⟩ => ⟨S_, .f32⟩
  | .hbm, ⟨51, _⟩ => ⟨S100000x1, .f32⟩
  | .hbm, ⟨52, _⟩ => ⟨S800000x1, .i32⟩
  | .hbm, ⟨53, _⟩ => ⟨S100000x1, .f32⟩
  | .hbm, ⟨54, _⟩ => ⟨S1x64, .f32⟩
  | .hbm, ⟨55, _⟩ => ⟨S1x64, .f32⟩
  | .hbm, ⟨56, _⟩ => ⟨S1x64, .f32⟩
  | .hbm, ⟨57, _⟩ => ⟨S64x64, .f32⟩
  | .hbm, ⟨58, _⟩ => ⟨S64x64, .f32⟩
  | .hbm, ⟨59, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S5000x1, .f32⟩
  | .local _ .vmem, ⟨3, _⟩ => ⟨S5000x1, .f32⟩
  | .local _ .vmem, ⟨4, _⟩ => ⟨S5000x64, .f32⟩
  | .local _ .vmem, ⟨5, _⟩ => ⟨S5000x64, .f32⟩
  | .local _ .vmem, ⟨6, _⟩ => ⟨S5000x1, .f32⟩
  | .local _ .vmem, ⟨7, _⟩ => ⟨S5000x1, .f32⟩
  | .local _ .vmem, ⟨8, _⟩ => ⟨S64x64, .f32⟩
  | .local _ .vmem, ⟨9, _⟩ => ⟨S1x64, .f32⟩
  | .local _ .vmem, ⟨10, _⟩ => ⟨S64x64, .f32⟩
  | .local _ .vmem, ⟨11, _⟩ => ⟨S1x64, .f32⟩
  | .local _ .vmem, ⟨12, _⟩ => ⟨S64x64, .f32⟩
  | .local _ .vmem, ⟨13, _⟩ => ⟨S64x64, .f32⟩
  | .local _ .vmem, ⟨14, _⟩ => ⟨S1x64, .f32⟩
  | .local _ .vmem, ⟨15, _⟩ => ⟨S5000x64, .f32⟩
  | .local _ .vmem, ⟨16, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c : Ref sig .tc := ⟨.hbm, 16, rfl⟩
abbrev main_v8 : Ref sig .tc := ⟨.hbm, 17, rfl⟩
abbrev main_v9 : Ref sig .tc := ⟨.hbm, 18, rfl⟩
abbrev main_c_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_1 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c_3 : Ref sig .tc := ⟨.hbm, 35, rfl⟩
abbrev main_v22 : Ref sig .tc := ⟨.hbm, 36, rfl⟩
abbrev main_v23 : Ref sig .tc := ⟨.hbm, 37, rfl⟩
abbrev main_c_4 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_5 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_6 : Ref sig .tc := ⟨.hbm, 48, rfl⟩
abbrev main_v32 : Ref sig .tc := ⟨.hbm, 49, rfl⟩
abbrev main_cst_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S5000x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  slices_S2x800000_S1x400000_0_0 : S2x800000.Slices ![0, 0] S1x400000
  shapeCasts_S1x400000_S400000 : S1x400000.ShapeCasts S400000
  slices_S2x800000_S1x400000_1_0 : S2x800000.Slices ![1, 0] S1x400000
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S400000 : S_.BroadcastsInDim S400000 (![] : Fin 0 → Fin S400000.rank)
  bcast_S400000_S400000x1_0 : S400000.BroadcastsInDim S400000x1 (![0] : Fin 1 → Fin S400000x1.rank)
  bcast_S_S100000x64 : S_.BroadcastsInDim S100000x64 (![] : Fin 0 → Fin S100000x64.rank)
  bcast_S_S400000x1 : S_.BroadcastsInDim S400000x1 (![] : Fin 0 → Fin S400000x1.rank)
  bcast_S_S100000x1 : S_.BroadcastsInDim S100000x1 (![] : Fin 0 → Fin S100000x1.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  shapeCasts_S64_S1x64 : S64.ShapeCasts S1x64
  slices_S64x128_S64x64_0_0 : S64x128.Slices ![0, 0] S64x64
  slices_S64x128_S64x64_0_64 : S64x128.Slices ![0, 64] S64x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  transposes_S64x64_p1_0_S64x64 : S64x64.Transposes [1, 0] S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  shapeCasts_S64x64_S64x64 : S64x64.ShapeCasts S64x64
  gather_S100000x64_S400000x1_S400000x64_1_0_n_n_0_1_164_wf : GatherDims.WF S100000x64 S400000x1 S400000x64 [1] [0] [] [0] [] 1 ![1, 64]
  scatter_S100000x64_S400000x1_S400000x64_1_0_0_1_wf : ScatterDims.WF S100000x64 S400000x1 S400000x64 [1] [0] [0] 1
  scatter_S100000x1_S400000x1_S400000x1_1_0_0_1_wf : ScatterDims.WF S100000x1 S400000x1 S400000x1 [1] [0] [0] 1
  gather_S100000x64_S800000x1_S800000x64_1_0_n_n_0_1_164_wf : GatherDims.WF S100000x64 S800000x1 S800000x64 [1] [0] [] [0] [] 1 ![1, 64]
  scatter_S100000x64_S800000x1_S800000x64_1_0_0_1_wf : ScatterDims.WF S100000x64 S800000x1 S800000x64 [1] [0] [0] 1
  scatter_S100000x1_S800000x1_S800000x1_1_0_0_1_wf : ScatterDims.WF S100000x1 S800000x1 S800000x1 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x1.size a ≤ S100000x1.size a
  hwx0_3 : ∀ i : grid0.Coords, EltTy.bits .f32 = 32 ∨ (Rect.block (s := S100000x1) S5000x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x64.size a ≤ S64x64.size a
  hwx0_6 : ∀ i : grid0.Coords, EltTy.bits .f32 = 32 ∨ (Rect.block (s := S64x64) S64x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64x64.size a ≤ S64x64.size a
  hwx0_8 : ∀ i : grid0.Coords, EltTy.bits .f32 = 32 ∨ (Rect.block (s := S64x64) S64x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S64x64.size a ≤ S64x64.size a
  hwx0_9 : ∀ i : grid0.Coords, EltTy.bits .f32 = 32 ∨ (Rect.block (s := S64x64) S64x64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x64.size a ≤ S1x64.size a
  hwx0_10 : ∀ i : grid0.Coords, EltTy.bits .f32 = 32 ∨ (Rect.block (s := S1x64) S1x64.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S5000x64.size a ≤ S100000x64.size a
  hwx0_11 : ∀ i : grid0.Coords, EltTy.bits .f32 = 32 ∨ (Rect.block (s := S100000x64) S5000x64.size (cc0_transform_11 i) (hinb0_11 i)).WholeWords (EltTy.packing .f32)

variable [Facts₀]

def gather_S100000x64_S400000x1_S400000x64_1_0_n_n_0_1_164 : GatherDims S100000x64 S400000x1 S400000x64 where
  offsetDims := [1]
  collapsedSliceDims := [0]
  operandBatchingDims := []
  startIndicesBatchingDims := []
  startIndexMap := [0]
  indexVectorDim := 1
  sliceSizes := ![1, 64]
  wf := gather_S100000x64_S400000x1_S400000x64_1_0_n_n_0_1_164_wf
def scatter_S100000x64_S400000x1_S400000x64_1_0_0_1 : ScatterDims S100000x64 S400000x1 S400000x64 where
  updateWindowDims := [1]
  insertedWindowDims := [0]
  scatterDimsToOperandDims := [0]
  indexVectorDim := 1
  wf := scatter_S100000x64_S400000x1_S400000x64_1_0_0_1_wf
def scatter_S100000x1_S400000x1_S400000x1_1_0_0_1 : ScatterDims S100000x1 S400000x1 S400000x1 where
  updateWindowDims := [1]
  insertedWindowDims := [0]
  scatterDimsToOperandDims := [0]
  indexVectorDim := 1
  wf := scatter_S100000x1_S400000x1_S400000x1_1_0_0_1_wf
def gather_S100000x64_S800000x1_S800000x64_1_0_n_n_0_1_164 : GatherDims S100000x64 S800000x1 S800000x64 where
  offsetDims := [1]
  collapsedSliceDims := [0]
  operandBatchingDims := []
  startIndicesBatchingDims := []
  startIndexMap := [0]
  indexVectorDim := 1
  sliceSizes := ![1, 64]
  wf := gather_S100000x64_S800000x1_S800000x64_1_0_n_n_0_1_164_wf
def scatter_S100000x64_S800000x1_S800000x64_1_0_0_1 : ScatterDims S100000x64 S800000x1 S800000x64 where
  updateWindowDims := [1]
  insertedWindowDims := [0]
  scatterDimsToOperandDims := [0]
  indexVectorDim := 1
  wf := scatter_S100000x64_S800000x1_S800000x64_1_0_0_1_wf
def scatter_S100000x1_S800000x1_S800000x1_1_0_0_1 : ScatterDims S100000x1 S800000x1 S800000x1 where
  updateWindowDims := [1]
  insertedWindowDims := [0]
  scatterDimsToOperandDims := [0]
  indexVectorDim := 1
  wf := scatter_S100000x1_S800000x1_S800000x1_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_v17) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v31) S5000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v35) S5000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v36) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg4) S64x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v37) S1x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v39) S64x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v40) S64x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v38) S1x64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v41) S5000x64.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S100000x64 : Shape := ⟨2, ![100000, 64]⟩
abbrev S2x800000 : Shape := ⟨2, ![2, 800000]⟩
abbrev S64x64 : Shape := ⟨2, ![64, 64]⟩
abbrev S64 : Shape := ⟨1, ![64]⟩
abbrev S64x128 : Shape := ⟨2, ![64, 128]⟩
abbrev S1x400000 : Shape := ⟨2, ![1, 400000]⟩
abbrev S400000 : Shape := ⟨1, ![400000]⟩
abbrev S_ : Shape := ⟨0, ![]⟩
abbrev S400000x1 : Shape := ⟨2, ![400000, 1]⟩
abbrev S400000x64 : Shape := ⟨2, ![400000, 64]⟩
abbrev S100000x1 : Shape := ⟨2, ![100000, 1]⟩
abbrev S1x64 : Shape := ⟨2, ![1, 64]⟩
abbrev S1x800000 : Shape := ⟨2, ![1, 800000]⟩
abbrev S800000 : Shape := ⟨1, ![800000]⟩
abbrev S800000x1 : Shape := ⟨2, ![800000, 1]⟩
abbrev S800000x64 : Shape := ⟨2, ![800000, 64]⟩
abbrev S100000x128 : Shape := ⟨2, ![100000, 128]⟩
abbrev S128x64 : Shape := ⟨2, ![128, 64]⟩

abbrev nBuf : Space → Nat
  | .hbm => 94
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x800000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x128, .f32⟩
  | .hbm, ⟨7, _⟩ => ⟨S64, .f32⟩
  | .hbm, ⟨8, _⟩ => ⟨S1x400000, .i32⟩
  | .hbm, ⟨9, _⟩ => ⟨S400000, .i32⟩
  | .hbm, ⟨10, _⟩ => ⟨S1x400000, .i32⟩
  | .hbm, ⟨11, _⟩ => ⟨S400000, .i32⟩
  | .hbm, ⟨12, _⟩ => ⟨S_, .i32⟩
  | .hbm, ⟨13, _⟩ => ⟨S400000, .i32⟩
  | .hbm, ⟨14, _⟩ => ⟨S400000, .i1⟩
  | .hbm, ⟨15, _⟩ => ⟨S_, .i32⟩
  | .hbm, ⟨16, _⟩ => ⟨S400000, .i32⟩
  | .hbm, ⟨17, _⟩ => ⟨S400000, .i32⟩
  | .hbm, ⟨18, _⟩ => ⟨S400000, .i32⟩
  | .hbm, ⟨19, _⟩ => ⟨S400000x1, .i32⟩
  | .hbm, ⟨20, _⟩ => ⟨S400000x64, .f32⟩
  | .hbm, ⟨21, _⟩ => ⟨S_, .f32⟩
  | .hbm, ⟨22, _⟩ => ⟨S100000x64, .f32⟩
  | .hbm, ⟨23, _⟩ => ⟨S400000x1, .i32⟩
  | .hbm, ⟨24, _⟩ => ⟨S100000x64, .f32⟩
  | .hbm, ⟨25, _⟩ => ⟨S_, .f32⟩
  | .hbm, ⟨26, _⟩ => ⟨S400000x1, .f32⟩
  | .hbm, ⟨27, _⟩ => ⟨S_, .f32⟩
  | .hbm, ⟨28, _⟩ => ⟨S100000x1, .f32⟩
  | .hbm, ⟨29, _⟩ => ⟨S400000x1, .i32⟩
  | .hbm, ⟨30, _⟩ => ⟨S100000x1, .f32⟩
  | .hbm, ⟨31, _⟩ => ⟨S_, .f32⟩
  | .hbm, ⟨32, _⟩ => ⟨S100000x1, .f32⟩
  | .hbm, ⟨33, _⟩ => ⟨S100000x1, .f32⟩
  | .hbm, ⟨34, _⟩ => ⟨S100000x64, .f32⟩
  | .hbm, ⟨35, _⟩ => ⟨S100000x64, .f32⟩
  | .hbm, ⟨36, _⟩ => ⟨S64x64, .f32⟩
  | .hbm, ⟨37, _⟩ => ⟨S100000x64, .f32⟩
  | .hbm, ⟨38, _⟩ => ⟨S1x64, .f32⟩
  | .hbm, ⟨39, _⟩ => ⟨S100000x64, .f32⟩
  | .hbm, ⟨40, _⟩ => ⟨S100000x64, .f32⟩
  | .hbm, ⟨41, _⟩ => ⟨S1x800000, .i32⟩
  | .hbm, ⟨42, _⟩ => ⟨S800000, .i32⟩
  | .hbm, ⟨43, _⟩ => ⟨S1x800000, .i32⟩
  | .hbm, ⟨44, _⟩ => ⟨S800000, .i32⟩
  | .hbm, ⟨45, _⟩ => ⟨S_, .i32⟩
  | .hbm, ⟨46, _⟩ => ⟨S800000, .i32⟩
  | .hbm, ⟨47, _⟩ => ⟨S800000, .i1⟩
  | .hbm, ⟨48, _⟩ => ⟨S_, .i32⟩
  | .hbm, ⟨49, _⟩ => ⟨S800000, .i32⟩
  | .hbm, ⟨50, _⟩ => ⟨S800000, .i32⟩
  | .hbm, ⟨51, _⟩ => ⟨S800000, .i32⟩
  | .hbm, ⟨52, _⟩ => ⟨S800000x1, .i32⟩
  | .hbm, ⟨53, _⟩ => ⟨S800000x64, .f32⟩
  | .hbm, ⟨54, _⟩ => ⟨S_, .f32⟩
  | .hbm, ⟨55, _⟩ => ⟨S100000x64, .f32⟩
  | .hbm, ⟨56, _⟩ => ⟨S800000x1, .i32⟩
  | .hbm, ⟨57, _⟩ => ⟨S100000x64, .f32⟩
  | .hbm, ⟨58, _⟩ => ⟨S_, .f32⟩
  | .hbm, ⟨59, _⟩ => ⟨S800000x1, .f32⟩
  | .hbm, ⟨60, _⟩ => ⟨S_, .f32⟩
  | .hbm, ⟨61, _⟩ => ⟨S100000x1, .f32⟩
  | .hbm, ⟨62, _⟩ => ⟨S800000x1, .i32⟩
  | .hbm, ⟨63, _⟩ => ⟨S100000x1, .f32⟩
  | .hbm, ⟨64, _⟩ => ⟨S_, .f32⟩
  | .hbm, ⟨65, _⟩ => ⟨S100000x1, .f32⟩
  | .hbm, ⟨66, _⟩ => ⟨S100000x1, .f32⟩
  | .hbm, ⟨67, _⟩ => ⟨S100000x64, .f32⟩
  | .hbm, ⟨68, _⟩ => ⟨S100000x64, .f32⟩
  | .hbm, ⟨69, _⟩ => ⟨S64x64, .f32⟩
  | .hbm, ⟨70, _⟩ => ⟨S100000x64, .f32⟩
  | .hbm, ⟨71, _⟩ => ⟨S1x64, .f32⟩
  | .hbm, ⟨72, _⟩ => ⟨S100000x64, .f32⟩
  | .hbm, ⟨73, _⟩ => ⟨S100000x64, .f32⟩
  | .hbm, ⟨74, _⟩ => ⟨S100000x128, .f32⟩
  | .hbm, ⟨75, _⟩ => ⟨S128x64, .f32⟩
  | .hbm, ⟨76, _⟩ => ⟨S100000x64, .f32⟩
  | .hbm, ⟨77, _⟩ => ⟨S1x64, .f32⟩
  | .hbm, ⟨78, _⟩ => ⟨S100000x64, .f32⟩
  | .hbm, ⟨79, _⟩ => ⟨S100000x64, .f32⟩
  | .hbm, ⟨80, _⟩ => ⟨S100000x64, .f32⟩
  | .hbm, ⟨81, _⟩ => ⟨S100000x64, .f32⟩
  | .hbm, ⟨82, _⟩ => ⟨S_, .f32⟩
  | .hbm, ⟨83, _⟩ => ⟨S100000x64, .f32⟩
  | .hbm, ⟨84, _⟩ => ⟨S100000x64, .f32⟩
  | .hbm, ⟨85, _⟩ => ⟨S_, .f32⟩
  | .hbm, ⟨86, _⟩ => ⟨S100000x64, .f32⟩
  | .hbm, ⟨87, _⟩ => ⟨S100000x64, .f32⟩
  | .hbm, ⟨88, _⟩ => ⟨S100000x64, .f32⟩
  | .hbm, ⟨89, _⟩ => ⟨S_, .f32⟩
  | .hbm, ⟨90, _⟩ => ⟨S100000x64, .f32⟩
  | .hbm, ⟨91, _⟩ => ⟨S100000x64, .f32⟩
  | .hbm, ⟨92, _⟩ => ⟨S100000x64, .f32⟩
  | .hbm, ⟨93, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_4 : Ref sig .tc := ⟨.hbm, 45, rfl⟩
abbrev main_v31 : Ref sig .tc := ⟨.hbm, 46, rfl⟩
abbrev main_v32 : Ref sig .tc := ⟨.hbm, 47, rfl⟩
abbrev main_c_5 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_7 : Ref sig .tc := ⟨.hbm, 58, rfl⟩
abbrev main_v41 : Ref sig .tc := ⟨.hbm, 59, rfl⟩
abbrev main_cst_8 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_9 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_cst_10 : Ref sig .tc := ⟨.hbm, 82, rfl⟩
abbrev main_v62 : Ref sig .tc := ⟨.hbm, 83, rfl⟩
abbrev main_v63 : Ref sig .tc := ⟨.hbm, 84, rfl⟩
abbrev main_cst_11 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_cst_12 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩

abbrev nD : Nat := 1
abbrev τ : Topo := Topo.v7x

variable {F : FTy → Type} [FloatOps F]

class Facts₀ : Prop where
  slices_S2x800000_S1x400000_0_0 : S2x800000.Slices ![0, 0] S1x400000
  shapeCasts_S1x400000_S400000 : S1x400000.ShapeCasts S400000
  slices_S2x800000_S1x400000_1_0 : S2x800000.Slices ![1, 0] S1x400000
  bcast_S_S400000 : S_.BroadcastsInDim S400000 (![] : Fin 0 → Fin S400000.rank)
  bcast_S400000_S400000x1_0 : S400000.BroadcastsInDim S400000x1 (![0] : Fin 1 → Fin S400000x1.rank)
  bcast_S_S100000x64 : S_.BroadcastsInDim S100000x64 (![] : Fin 0 → Fin S100000x64.rank)
  bcast_S_S400000x1 : S_.BroadcastsInDim S400000x1 (![] : Fin 0 → Fin S400000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  transposes_S64x64_S64x64_1_0 : S64x64.Transposes [1, 0] S64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  concatenates_S100000x64_S100000x64_S100000x128_d1 : Shape.Concatenates [S100000x64, S100000x64] S100000x128 1
  transposes_S64x128_S128x64_1_0 : S64x128.Transposes [1, 0] S128x64
  gather_S100000x64_S400000x1_S400000x64_1_0_n_n_0_1_164_wf : GatherDims.WF S100000x64 S400000x1 S400000x64 [1] [0] [] [0] [] 1 ![1, 64]
  scatter_S100000x64_S400000x1_S400000x64_1_0_0_1_wf : ScatterDims.WF S100000x64 S400000x1 S400000x64 [1] [0] [0] 1
  scatter_S100000x1_S400000x1_S400000x1_1_0_0_1_wf : ScatterDims.WF S100000x1 S400000x1 S400000x1 [1] [0] [0] 1
  dot_S100000x64_S64x64_S100000x64_1_0_0_1_n_n_wf : DotDims.WF S100000x64 S64x64 S100000x64 [1] [0] [0] [1] [] []
  gather_S100000x64_S800000x1_S800000x64_1_0_n_n_0_1_164_wf : GatherDims.WF S100000x64 S800000x1 S800000x64 [1] [0] [] [0] [] 1 ![1, 64]
  scatter_S100000x64_S800000x1_S800000x64_1_0_0_1_wf : ScatterDims.WF S100000x64 S800000x1 S800000x64 [1] [0] [0] 1
  scatter_S100000x1_S800000x1_S800000x1_1_0_0_1_wf : ScatterDims.WF S100000x1 S800000x1 S800000x1 [1] [0] [0] 1
  dot_S100000x128_S128x64_S100000x64_1_0_0_1_n_n_wf : DotDims.WF S100000x128 S128x64 S100000x64 [1] [0] [0] [1] [] []

variable [Facts₀]

def gather_S100000x64_S400000x1_S400000x64_1_0_n_n_0_1_164 : GatherDims S100000x64 S400000x1 S400000x64 where
  offsetDims := [1]
  collapsedSliceDims := [0]
  operandBatchingDims := []
  startIndicesBatchingDims := []
  startIndexMap := [0]
  indexVectorDim := 1
  sliceSizes := ![1, 64]
  wf := gather_S100000x64_S400000x1_S400000x64_1_0_n_n_0_1_164_wf
def scatter_S100000x64_S400000x1_S400000x64_1_0_0_1 : ScatterDims S100000x64 S400000x1 S400000x64 where
  updateWindowDims := [1]
  insertedWindowDims := [0]
  scatterDimsToOperandDims := [0]
  indexVectorDim := 1
  wf := scatter_S100000x64_S400000x1_S400000x64_1_0_0_1_wf
def scatter_S100000x1_S400000x1_S400000x1_1_0_0_1 : ScatterDims S100000x1 S400000x1 S400000x1 where
  updateWindowDims := [1]
  insertedWindowDims := [0]
  scatterDimsToOperandDims := [0]
  indexVectorDim := 1
  wf := scatter_S100000x1_S400000x1_S400000x1_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S800000x1_S800000x64_1_0_n_n_0_1_164 : GatherDims S100000x64 S800000x1 S800000x64 where
  offsetDims := [1]
  collapsedSliceDims := [0]
  operandBatchingDims := []
  startIndicesBatchingDims := []
  startIndexMap := [0]
  indexVectorDim := 1
  sliceSizes := ![1, 64]
  wf := gather_S100000x64_S800000x1_S800000x64_1_0_n_n_0_1_164_wf
def scatter_S100000x64_S800000x1_S800000x64_1_0_0_1 : ScatterDims S100000x64 S800000x1 S800000x64 where
  updateWindowDims := [1]
  insertedWindowDims := [0]
  scatterDimsToOperandDims := [0]
  indexVectorDim := 1
  wf := scatter_S100000x64_S800000x1_S800000x64_1_0_0_1_wf
def scatter_S100000x1_S800000x1_S800000x1_1_0_0_1 : ScatterDims S100000x1 S800000x1 S800000x1 where
  updateWindowDims := [1]
  insertedWindowDims := [0]
  scatterDimsToOperandDims := [0]
  indexVectorDim := 1
  wf := scatter_S100000x1_S800000x1_S800000x1_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.Spec.lean ====
import Idealize.ShloMosaic.PureOps.Ideal
import Idealize.ShloMosaic.Lib.ValueIdx

/-!
# The gated fusion of two graph-convolution scales, one output entry at a time

For one node, let `a₁, a₂ : Fin 64 → EReal` be the sums of its neighbours' features at the two scales and `c₁, c₂` the
neighbour counts. Each scale takes the mean `aₛ / (cₛ + ε)`, then a dense layer `oₛ[q] = ∑ k, meanₛ[k] · Wₛ[q, k] + bₛ[q]`.
The gate is the logistic function of `∑ k, o₁[k] · Wg[q, k] + ∑ k, o₂[k] · Wg[q, 64 + k] + bg[q]`, and the result is
`gate · o₁[q] + (1 - gate) · o₂[q]`. Everything is a function of the node's own row, so the same definition describes a
block of rows and the whole array.
-/

noncomputable section

namespace Cert.GatedFusion

open Idealize.ShloMosaic

/-- The small constant added to a neighbour count before dividing by it. -/
def eps : EReal := Ideal.ofBits .f32 0x358637BD#32

/-- The float word of `1.0`, as both programs spell the `1` of `1 - gate`. -/
def oneW : EReal := Ideal.ofBits .f32 0x3F800000#32

/-- The mean of a node's neighbour features: the sum divided by the count plus `ε`. -/
def meanRow (a : Fin 64 → EReal) (c : EReal) : Fin 64 → EReal := fun k => Ideal.div (a k) (c + eps)

/-- A dense layer with the weight stored as `[out, in]`: `∑ k, v[k] · W[q, k] + b[q]`. -/
def dense (v : Fin 64 → EReal) (W : Fin 64 → Fin 64 → EReal) (b : Fin 64 → EReal) (q : Fin 64) : EReal :=
  (∑ k : Fin 64, v k * W q k) + b q

/-- The gate's argument: the two scales' outputs against the two column halves `Wga`, `Wgb` of the gate weight, plus the
    gate bias. -/
def gateLogit (o₁ o₂ : Fin 64 → EReal) (Wga Wgb : Fin 64 → Fin 64 → EReal) (bg : Fin 64 → EReal) (q : Fin 64) : EReal :=
  ((∑ k : Fin 64, o₁ k * Wga q k) + (∑ k : Fin 64, o₂ k * Wgb q k)) + bg q

/-- The convex combination of the two scales' outputs under a gate `g`. -/
def blend (g x y : EReal) : EReal := g * x + (oneW - g) * y

/-- One entry of the fused output for one node. -/
def fusedEntry (a₁ : Fin 64 → EReal) (c₁ : EReal) (a₂ : Fin 64 → EReal) (c₂ : EReal)
    (W₁ : Fin 64 → Fin 64 → EReal) (b₁ : Fin 64 → EReal) (W₂ : Fin 64 → Fin 64 → EReal) (b₂ : Fin 64 → EReal)
    (Wga Wgb : Fin 64 → Fin 64 → EReal) (bg : Fin 64 → EReal) (q : Fin 64) : EReal :=
  blend (Ideal.logistic (gateLogit (dense (meanRow a₁ c₁) W₁ b₁) (dense (meanRow a₂ c₂) W₂ b₂) Wga Wgb bg q))
    (dense (meanRow a₁ c₁) W₁ b₁ q) (dense (meanRow a₂ c₂) W₂ b₂ q)

/-- The fused output as one function of the aggregated neighbour sums `A₁, A₂`, the neighbour counts `C₁, C₂` and the
    weights: entry `(r, q)` is `fusedEntry` of row `r` of the sums and counts. The gate weight's left and right column
    halves are read off the one `[64, 128]` array. -/
def fused {M : Nat} (A₁ : (⟨2, ![M, 64]⟩ : Shape).Idx → EReal) (C₁ : (⟨2, ![M, 1]⟩ : Shape).Idx → EReal)
    (A₂ : (⟨2, ![M, 64]⟩ : Shape).Idx → EReal) (C₂ : (⟨2, ![M, 1]⟩ : Shape).Idx → EReal)
    (W₁ : (⟨2, ![64, 64]⟩ : Shape).Idx → EReal) (b₁ : (⟨1, ![64]⟩ : Shape).Idx → EReal)
    (W₂ : (⟨2, ![64, 64]⟩ : Shape).Idx → EReal) (b₂ : (⟨1, ![64]⟩ : Shape).Idx → EReal)
    (Wg : (⟨2, ![64, 128]⟩ : Shape).Idx → EReal) (bg : (⟨1, ![64]⟩ : Shape).Idx → EReal) :
    (⟨2, ![M, 64]⟩ : Shape).Idx → EReal := fun i =>
  fusedEntry (fun k => A₁ (ValueIdx.ix2 (i 0) k)) (C₁ (ValueIdx.ix2 (i 0) (0 : Fin 1)))
    (fun k => A₂ (ValueIdx.ix2 (i 0) k)) (C₂ (ValueIdx.ix2 (i 0) (0 : Fin 1)))
    (fun j k => W₁ (ValueIdx.ix2 j k)) (fun j => b₁ (ValueIdx.ix1 j))
    (fun j k => W₂ (ValueIdx.ix2 j k)) (fun j => b₂ (ValueIdx.ix1 j))
    (fun j k => Wg (ValueIdx.ix2 j (⟨k.val, by omega⟩ : Fin 128)))
    (fun j k => Wg (ValueIdx.ix2 j (⟨64 + k.val, by omega⟩ : Fin 128)))
    (fun j => bg (ValueIdx.ix1 j)) (i 1)

/-- A sum over 128 columns is the sum over the first 64 plus the sum over the last 64. -/
theorem sum_halves (f : Fin 128 → EReal) :
    (∑ k : Fin 128, f k) = (∑ k : Fin 64, f ⟨k.val, by omega⟩) + (∑ k : Fin 64, f ⟨64 + k.val, by omega⟩) := by
  have h := Fin.sum_univ_add (a := 64) (b := 64) (f : Fin (64 + 64) → EReal)
  refine h.trans ?_
  congr 1

end Cert.GatedFusion

end
-- ==== Proof.LibContract.lean ====
import Idealize.ShloMosaic.PureOps.Ideal.Laws
import Idealize.ShloMosaic.Lib.ValueIdx

/-!
# The plain contraction `[M, K] × [K, N]` read at an entry, on the extended reals

`DotDims.plain M K N` has the fields of every printed `…_1_0_0_1_n_n` record of rank-2 operands (contract the left
operand's axis 1 with the right operand's axis 0, no batch axes). Over it the host's `dot_general` and a kernel's
`tpu.matmul` into the zero splat are both, at entry `(p, q)`, the sum over `k` of `a[p, k] · b[k, q]`.
-/

noncomputable section

namespace Cert.LibDense

open Idealize.ShloMosaic Idealize.ShloMosaic.ValueIdx

/-! ## The operand indices of the plain contraction, axis by axis

At result index `j` and contraction index `c` the left operand is read at `(j 0, c)` and the right one at `(c, j 1)`:
a kept axis reads the result index at its place, the contracted axis reads the one coordinate of `c`. -/

/-- The left operand's row is the result's row. -/
theorem plain_lhs_0 (M K N : Nat) (j : (⟨2, ![M, N]⟩ : Shape).Idx) (c : (DotDims.plain M K N).contr.Idx) :
    ((DotDims.plain M K N).lhsIdx j c 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column is the contraction index's coordinate. -/
theorem plain_lhs_1 (M K N : Nat) (j : (⟨2, ![M, N]⟩ : Shape).Idx) (c : (DotDims.plain M K N).contr.Idx) :
    ((DotDims.plain M K N).lhsIdx j c 1).val = (c ⟨0, Nat.one_pos⟩).val :=
  (DotDims.plain M K N).lhsIdx_val_of_single rfl j c

/-- The right operand's row is the contraction index's coordinate. -/
theorem plain_rhs_0 (M K N : Nat) (j : (⟨2, ![M, N]⟩ : Shape).Idx) (c : (DotDims.plain M K N).contr.Idx) :
    ((DotDims.plain M K N).rhsIdx j c 0).val = (c ⟨0, Nat.one_pos⟩).val :=
  (DotDims.plain M K N).rhsIdx_val_of_single rfl j c

/-- The right operand's column is the result's column. -/
theorem plain_rhs_1 (M K N : Nat) (j : (⟨2, ![M, N]⟩ : Shape).Idx) (c : (DotDims.plain M K N).contr.Idx) :
    ((DotDims.plain M K N).rhsIdx j c 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the one-axis contraction index, re-indexed by its coordinate `k : Fin K` and with both operand
    indices read off: `∑ k, a[p, k] · b[k, q]`. -/
theorem plain_sum (M K N : Nat) {φ₁ φ₂ : FTy} (a : FVec Ideal (⟨2, ![M, K]⟩ : Shape) φ₁)
    (b : FVec Ideal (⟨2, ![K, N]⟩ : Shape) φ₂) (p : Fin M) (q : Fin N) :
    (∑ c : (DotDims.plain M K N).contr.Idx,
        a ((DotDims.plain M K N).lhsIdx (ix2 p q) c) * b ((DotDims.plain M K N).rhsIdx (ix2 p q) c))
      = ∑ k : Fin K, a (ix2 p k) * b (ix2 k q) := by
  rw [← Equiv.sum_comp (ValueIdx.contrEquiv1 (DotDims.plain M K N) K rfl rfl).symm]
  refine Finset.sum_congr rfl fun k _ => ?_
  have hk := ValueIdx.contrEquiv1_symm_val (DotDims.plain M K N) K rfl rfl k
  have el : (DotDims.plain M K N).lhsIdx (ix2 p q) ((ValueIdx.contrEquiv1 (DotDims.plain M K N) K rfl rfl).symm k)
      = ix2 p k := funext fun x => Fin.ext (by
    match x with
    | ⟨0, _⟩ => exact plain_lhs_0 M K N _ _
    | ⟨1, _⟩ => exact (plain_lhs_1 M K N _ _).trans hk)
  have er : (DotDims.plain M K N).rhsIdx (ix2 p q) ((ValueIdx.contrEquiv1 (DotDims.plain M K N) K rfl rfl).symm k)
      = ix2 k q := funext fun x => Fin.ext (by
    match x with
    | ⟨0, _⟩ => exact (plain_rhs_0 M K N _ _).trans hk
    | ⟨1, _⟩ => exact plain_rhs_1 M K N _ _)
  rw [el, er]

/-! ## The contraction read at an entry -/

/-- The host's `dot_general` over the plain contraction, at entry `(p, q)`: `∑ k, a[p, k] · b[k, q]`. -/
theorem dotGeneral_plain_apply (M K N : Nat) {φ₁ φ₂ : FTy} (prec : Option ContractPrecision)
    (a : FVec Ideal (⟨2, ![M, K]⟩ : Shape) φ₁) (b : FVec Ideal (⟨2, ![K, N]⟩ : Shape) φ₂) (p : Fin M) (q : Fin N) :
    Host.dotGeneral (DotDims.plain M K N) prec a b (ix2 p q) = ∑ k : Fin K, a (ix2 p k) * b (ix2 k q) := by
  simp only [Host.dotGeneral]
  rw [Ideal.dotGeneral_apply]
  exact plain_sum M K N a b p q

/-- A kernel's `tpu.matmul` over the plain contraction into the zero splat, at entry `(p, q)`: the same sum. -/
theorem matmul_plain_zero_apply (M K N : Nat) {φ₁ φ₂ : FTy} (prec : Option ContractPrecision)
    (a : FVec Ideal (⟨2, ![M, K]⟩ : Shape) φ₁) (b : FVec Ideal (⟨2, ![K, N]⟩ : Shape) φ₂) (p : Fin M) (q : Fin N) :
    matmul (DotDims.plain M K N) prec a b (constant (F := Ideal) (⟨2, ![M, N]⟩ : Shape) .f32 0x00000000#32) (ix2 p q)
      = ∑ k : Fin K, a (ix2 p k) * b (ix2 k q) := by
  simp only [matmul]
  rw [Ideal.matmul_constant_zero_apply]
  exact plain_sum M K N a b p q

end Cert.LibDense

end
-- ==== Proof.KernelEntry.lean ====
import proofs.«157027_j5222680232055_1_alg».proof.Proof.Gen.KernelIdeal.Skeleton
import proofs.«157027_j5222680232055_1_alg».proof.Proof.Spec
import proofs.«157027_j5222680232055_1_alg».proof.Proof.LibContract
import Idealize.ShloMosaic.Lib.Pipeline.Value
import Idealize.ShloMosaic.Lib.ValueIdx

/-!
# The kernel body's result at one entry

The body works on a block of 5000 rows. Entry `(p, q)` of what it stores is `fusedEntry` of row `p` of the block's
aggregated sums and counts and of the weights: the two means, the two dense layers (a contraction with the transposed
weight plus the bias row), the gate's argument as two contractions plus the bias row, the logistic gate and the blend.
On the extended reals the changes of float format are the identity.
-/

noncomputable section

namespace Cert.GatedFusion.Kern

open Cert.KernelIdeal Cert.KernelIdeal.Gen Idealize.ShloMosaic Idealize.ShloMosaic.ValueIdx Cert.LibDense

/-- The transposed `[64, 64]` array at `(k, q)` is the array at `(q, k)`. -/
theorem transpose_apply64 {φ : FTy} (w : FVec Ideal S64x64 φ) (k q : Fin 64) :
    transpose S64x64 [1, 0] w transposes_S64x64_p1_0_S64x64 (ix2 k q) = w (ix2 q k) := by
  refine transpose_apply [1, 0] w transposes_S64x64_p1_0_S64x64 (ix2 k q) (ix2 q k) fun b => ?_
  match b with
  | ⟨0, _⟩ => rfl
  | ⟨1, _⟩ => rfl

/-- A column `[5000, 1]` broadcast along the rows' 64 lanes reads the column's entry of the row. -/
theorem bcast_col (v : FVec Ideal S5000x1 .f32) (p : Fin 5000) (k : Fin 64) :
    broadcastTo S5000x64 v broadcasts_S5000x1_S5000x64 (ix2 p k) = v (ix2 p (0 : Fin 1)) := by
  refine broadcastTo_apply v broadcasts_S5000x1_S5000x64 (ix2 p k) (ix2 p (0 : Fin 1)) fun a => ?_
  match a with
  | ⟨0, _⟩ => exact (if_neg (show ¬((5000 : Nat) = 1) by decide)).symm
  | ⟨1, _⟩ => exact (if_pos rfl).symm

/-- A row `[1, 64]` broadcast down 5000 rows reads the row's entry of the column. -/
theorem bcast_row (v : FVec Ideal S1x64 .f32) (p : Fin 5000) (q : Fin 64) :
    broadcastTo S5000x64 v broadcasts_S1x64_S5000x64 (ix2 p q) = v (ix2 (0 : Fin 1) q) := by
  refine broadcastTo_apply v broadcasts_S1x64_S5000x64 (ix2 p q) (ix2 (0 : Fin 1) q) fun a => ?_
  match a with
  | ⟨0, _⟩ => exact (if_pos rfl).symm
  | ⟨1, _⟩ => exact (if_neg (show ¬((64 : Nat) = 1) by decide)).symm

/-- A contraction of a `[5000, 64]` block with a transposed `[64, 64]` weight, into zero, at `(p, q)`:
    `∑ k, a[p, k] · w[q, k]`. -/
theorem matmulT_apply {φ₁ φ₂ : FTy} (a : FVec Ideal S5000x64 φ₁) (w : FVec Ideal S64x64 φ₂) (p : Fin 5000) (q : Fin 64) :
    matmul dot_S5000x64_S64x64_S5000x64_1_0_0_1_n_n none a
        (transpose S64x64 [1, 0] w transposes_S64x64_p1_0_S64x64) (constant (F := Ideal) S5000x64 .f32 0x00000000#32) (ix2 p q)
      = ∑ k : Fin 64, a (ix2 p k) * w (ix2 q k) := by
  refine (matmul_plain_zero_apply 5000 64 64 none a _ p q).trans ?_
  exact Finset.sum_congr rfl fun k _ => by rw [transpose_apply64]

/-- One scale's dense layer of the mean, at `(p, q)`. -/
theorem scale_apply (x0 : Vec Ideal S5000x64 .f32) (x1 : Vec Ideal S5000x1 .f32) (x4 : Vec Ideal S64x64 .f32)
    (x5 : Vec Ideal S1x64 .f32) (p : Fin 5000) (q : Fin 64) :
    k0_pay2 (F := Ideal) x0 x1 x4 x5 (ix2 p q)
      = dense (meanRow (fun k => x0 (ix2 p k)) (x1 (ix2 p (0 : Fin 1)))) (fun j k => x4 (ix2 j k))
          (fun j => x5 (ix2 (0 : Fin 1) j)) q := by
  unfold k0_pay2
  dsimp only
  refine (addf_apply _ _ _).trans ?_
  unfold dense
  refine congrArg₂ (· + ·) ?_ ?_
  -- the contraction with the transposed weight: each term is the mean's entry times the weight's
  · refine (matmulT_apply _ _ p q).trans ?_
    refine Finset.sum_congr rfl fun k _ => ?_
    refine congrArg₂ (· * ·) ?_ rfl
    show Ideal.div (shapeCast S5000x64 x0 shapeCasts_S5000x64_S5000x64 (ix2 p k))
        (broadcastTo S5000x64 (addf (shapeCast S5000x1 x1 shapeCasts_S5000x1_S5000x1)
          (broadcast S5000x1 (FloatOps.ofBits (F := Ideal) FTy.f32 0x358637BD#32))) broadcasts_S5000x1_S5000x64 (ix2 p k))
      = Ideal.div (x0 (ix2 p k)) (x1 (ix2 p (0 : Fin 1)) + eps)
    rw [bcast_col]
    simp only [shapeCast_self]
    rfl
  -- the bias row
  · exact (bcast_row _ p q).trans (by rw [shapeCast_self])

/-- The second scale's dense layer of the mean, at `(p, q)`: the same body text over the second scale's operands. -/
theorem scale2_apply (x2 : Vec Ideal S5000x64 .f32) (x3 : Vec Ideal S5000x1 .f32) (x6 : Vec Ideal S64x64 .f32)
    (x7 : Vec Ideal S1x64 .f32) (p : Fin 5000) (q : Fin 64) :
    k0_pay3 (F := Ideal) x2 x3 x6 x7 (ix2 p q)
      = dense (meanRow (fun k => x2 (ix2 p k)) (x3 (ix2 p (0 : Fin 1)))) (fun j k => x6 (ix2 j k))
          (fun j => x7 (ix2 (0 : Fin 1) j)) q :=
  scale_apply x2 x3 x6 x7 p q

/-- The gate's argument at `(p, q)`: the two scales' outputs contracted with the transposed halves of the gate weight,
    plus the gate bias row. -/
theorem gate_apply (t₁ t₂ : FVec Ideal S5000x64 .bf16) (o₁ o₂ : FVec Ideal S5000x64 .f32) (x8 x9 : Vec Ideal S64x64 .f32)
    (x10 : Vec Ideal S1x64 .f32) (p : Fin 5000) (q : Fin 64)
    (h₁ : ∀ k : Fin 64, t₁ (ix2 p k) = o₁ (ix2 p k)) (h₂ : ∀ k : Fin 64, t₂ (ix2 p k) = o₂ (ix2 p k)) :
    addf
        (addf
          (matmul dot_S5000x64_S64x64_S5000x64_1_0_0_1_n_n none t₁
            (transpose S64x64 [1, 0] (truncf .bf16 (shapeCast S64x64 x8 shapeCasts_S64x64_S64x64) bitsLt_bf16_f32)
              transposes_S64x64_p1_0_S64x64) (constant (F := Ideal) S5000x64 .f32 0x00000000#32))
          (matmul dot_S5000x64_S64x64_S5000x64_1_0_0_1_n_n none t₂
            (transpose S64x64 [1, 0] (truncf .bf16 (shapeCast S64x64 x9 shapeCasts_S64x64_S64x64) bitsLt_bf16_f32)
              transposes_S64x64_p1_0_S64x64) (constant (F := Ideal) S5000x64 .f32 0x00000000#32)))
        (broadcastTo S5000x64 (shapeCast S1x64 x10 shapeCasts_S1x64_S1x64) broadcasts_S1x64_S5000x64) (ix2 p q)
      = gateLogit (fun k => o₁ (ix2 p k)) (fun k => o₂ (ix2 p k)) (fun j k => x8 (ix2 j k)) (fun j k => x9 (ix2 j k))
          (fun j => x10 (ix2 (0 : Fin 1) j)) q := by
  refine (addf_apply _ _ _).trans ?_
  unfold gateLogit
  refine congrArg₂ (· + ·) ?_ ?_
  · refine (addf_apply _ _ _).trans ?_
    refine congrArg₂ (· + ·) ?_ ?_
    · refine (matmulT_apply t₁ _ p q).trans ?_
      refine Finset.sum_congr rfl fun k _ => ?_
      rw [h₁ k]
      refine congrArg₂ (· * ·) rfl ?_
      show shapeCast S64x64 x8 shapeCasts_S64x64_S64x64 (ix2 q k) = x8 (ix2 q k)
      rw [shapeCast_self]
    · refine (matmulT_apply t₂ _ p q).trans ?_
      refine Finset.sum_congr rfl fun k _ => ?_
      rw [h₂ k]
      refine congrArg₂ (· * ·) rfl ?_
      show shapeCast S64x64 x9 shapeCasts_S64x64_S64x64 (ix2 q k) = x9 (ix2 q k)
      rw [shapeCast_self]
  · exact (bcast_row _ p q).trans (by rw [shapeCast_self])

/-- The gate and the blend at `(p, q)`, from the two scales' outputs `o₁, o₂` (also given in the narrower format as
    `t₁, t₂`, equal to them entry by entry on the extended reals). -/
theorem blend_apply (o₁ o₂ : FVec Ideal S5000x64 .f32) (t₁ t₂ : FVec Ideal S5000x64 .bf16) (x8 x9 : Vec Ideal S64x64 .f32)
    (x10 : Vec Ideal S1x64 .f32) (p : Fin 5000) (q : Fin 64)
    (h₁ : ∀ k : Fin 64, t₁ (ix2 p k) = o₁ (ix2 p k)) (h₂ : ∀ k : Fin 64, t₂ (ix2 p k) = o₂ (ix2 p k)) :
    k0_pay1 (F := Ideal) o₁ o₂ t₁ t₂ x8 x9 x10 (ix2 p q)
      = blend (Ideal.logistic (gateLogit (fun k => o₁ (ix2 p k)) (fun k => o₂ (ix2 p k)) (fun j k => x8 (ix2 j k))
          (fun j k => x9 (ix2 j k)) (fun j => x10 (ix2 (0 : Fin 1) j)) q)) (o₁ (ix2 p q)) (o₂ (ix2 p q)) := by
  have hz := gate_apply t₁ t₂ o₁ o₂ x8 x9 x10 p q h₁ h₂
  unfold k0_pay1
  dsimp only
  refine (addf_apply _ _ _).trans ?_
  unfold blend
  refine congrArg₂ (· + ·) ?_ ?_
  -- gate · o₁
  · refine (mulf_apply _ _ _).trans ?_
    refine congrArg₂ (· * ·) ?_ rfl
    exact congrArg Ideal.logistic hz
  -- (1 - gate) · o₂
  · refine (mulf_apply _ _ _).trans ?_
    refine congrArg₂ (· * ·) ?_ rfl
    refine (subf_apply _ _ _).trans ?_
    refine congrArg₂ (· - ·) rfl ?_
    exact congrArg Ideal.logistic hz

/-- Changing any argument of `fusedEntry` to an equal one. -/
theorem fusedEntry_congr {a₁ a₁' a₂ a₂' : Fin 64 → EReal} {c₁ c₁' c₂ c₂' : EReal} {W₁ W₁' W₂ W₂' Wga Wga' Wgb Wgb' : Fin 64 → Fin 64 → EReal}
    {b₁ b₁' b₂ b₂' bg bg' : Fin 64 → EReal} {q q' : Fin 64}
    (ha₁ : ∀ k, a₁ k = a₁' k) (hc₁ : c₁ = c₁') (ha₂ : ∀ k, a₂ k = a₂' k) (hc₂ : c₂ = c₂')
    (hW₁ : ∀ j k, W₁ j k = W₁' j k) (hb₁ : ∀ j, b₁ j = b₁' j) (hW₂ : ∀ j k, W₂ j k = W₂' j k) (hb₂ : ∀ j, b₂ j = b₂' j)
    (hWga : ∀ j k, Wga j k = Wga' j k) (hWgb : ∀ j k, Wgb j k = Wgb' j k) (hbg : ∀ j, bg j = bg' j) (hq : q = q') :
    fusedEntry a₁ c₁ a₂ c₂ W₁ b₁ W₂ b₂ Wga Wgb bg q = fusedEntry a₁' c₁' a₂' c₂' W₁' b₁' W₂' b₂' Wga' Wgb' bg' q' := by
  obtain rfl : a₁ = a₁' := funext ha₁
  obtain rfl : a₂ = a₂' := funext ha₂
  obtain rfl : W₁ = W₁' := funext fun j => funext (hW₁ j)
  obtain rfl : W₂ = W₂' := funext fun j => funext (hW₂ j)
  obtain rfl : Wga = Wga' := funext fun j => funext (hWga j)
  obtain rfl : Wgb = Wgb' := funext fun j => funext (hWgb j)
  obtain rfl : b₁ = b₁' := funext hb₁
  obtain rfl : b₂ = b₂' := funext hb₂
  obtain rfl : bg = bg' := funext hbg
  subst hc₁ hc₂ hq
  rfl

/-- THE BODY'S RESULT AT AN ENTRY: what the body stores at `(p, q)`, from the eleven input blocks, is `fusedEntry` of row
    `p` of the sums and counts and of the weight blocks. -/
theorem body_entry (x0 : Vec Ideal S5000x64 .f32) (x1 : Vec Ideal S5000x1 .f32) (x2 : Vec Ideal S5000x64 .f32)
    (x3 : Vec Ideal S5000x1 .f32) (x4 : Vec Ideal S64x64 .f32) (x5 : Vec Ideal S1x64 .f32) (x6 : Vec Ideal S64x64 .f32)
    (x7 : Vec Ideal S1x64 .f32) (x8 x9 : Vec Ideal S64x64 .f32) (x10 : Vec Ideal S1x64 .f32) (p : Fin 5000) (q : Fin 64) :
    k0_pay1 (F := Ideal) (k0_pay2 x0 x1 x4 x5) (k0_pay3 x2 x3 x6 x7) (k0_pay4 x0 x1 x4 x5) (k0_pay5 x2 x3 x6 x7) x8 x9 x10 (ix2 p q)
      = fusedEntry (fun k => x0 (ix2 p k)) (x1 (ix2 p (0 : Fin 1))) (fun k => x2 (ix2 p k)) (x3 (ix2 p (0 : Fin 1)))
          (fun j k => x4 (ix2 j k)) (fun j => x5 (ix2 (0 : Fin 1) j)) (fun j k => x6 (ix2 j k)) (fun j => x7 (ix2 (0 : Fin 1) j))
          (fun j k => x8 (ix2 j k)) (fun j k => x9 (ix2 j k)) (fun j => x10 (ix2 (0 : Fin 1) j)) q := by
  refine (blend_apply (k0_pay2 x0 x1 x4 x5) (k0_pay3 x2 x3 x6 x7) (k0_pay4 x0 x1 x4 x5) (k0_pay5 x2 x3 x6 x7) x8 x9 x10 p q
    (fun _ => rfl) (fun _ => rfl)).trans ?_
  unfold fusedEntry
  have e₁ : (fun k => k0_pay2 (F := Ideal) x0 x1 x4 x5 (ix2 p k))
      = dense (meanRow (fun k => x0 (ix2 p k)) (x1 (ix2 p (0 : Fin 1)))) (fun j k => x4 (ix2 j k)) (fun j => x5 (ix2 (0 : Fin 1) j)) :=
    funext fun k => scale_apply x0 x1 x4 x5 p k
  have e₂ : (fun k => k0_pay3 (F := Ideal) x2 x3 x6 x7 (ix2 p k))
      = dense (meanRow (fun k => x2 (ix2 p k)) (x3 (ix2 p (0 : Fin 1)))) (fun j k => x6 (ix2 j k)) (fun j => x7 (ix2 (0 : Fin 1) j)) :=
    funext fun k => scale2_apply x2 x3 x6 x7 p k
  rw [e₁, e₂, scale_apply, scale2_apply]

end Cert.GatedFusion.Kern

end
-- ==== Proof.KernelIndex.lean ====
import proofs.«157027_j5222680232055_1_alg».proof.Proof.Gen.KernelIdeal.Frame
import Idealize.ShloMosaic.Lib.Pipeline.Value
import Idealize.ShloMosaic.Lib.ValueIdx
import Idealize.ShloMosaic.Lib.StableHlo.Run
import Idealize.ShloMosaic.Lib.Tactic

/-!
# The kernel's index maps over its 20 grid points

The windows over the aggregated sums, the counts and the result move one block of 5000 rows per grid point; every
weight window stays on its one block, the whole array.
-/

noncomputable section

namespace Cert.GatedFusion.Kern

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- The index maps of the row-blocked windows, decided over the 20 points: block `(t, 0)`. -/
theorem idx_rows : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_11.index t (0 : Fin 2) = t.val ∧ win0_11.index t (1 : Fin 2) = 0 :=
  (by decide +kernel : ∀ t : Fin grid0.N, _)

/-- The index maps of the weight windows, decided over the 20 points: always block `(0, 0)`, the whole array. -/
theorem idx_whole : ∀ t : Fin cfg0.N,
    win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0 :=
  (by decide +kernel : ∀ t : Fin grid0.N, _)

end Cert.GatedFusion.Kern

end
-- ==== Proof.KernelRows.lean ====
import proofs.«157027_j5222680232055_1_alg».proof.Proof.Gen.KernelIdeal.Frame
import proofs.«157027_j5222680232055_1_alg».proof.Proof.KernelIndex
import Idealize.ShloMosaic.Lib.Pipeline.Value
import Idealize.ShloMosaic.Lib.ValueIdx
import Idealize.ShloMosaic.Lib.StableHlo.Run
import Idealize.ShloMosaic.Lib.Tactic

/-!
# The row-blocked input blocks as rows of their arrays

At grid point `t` the blocks of the two scales' aggregated sums and counts hold rows `5000 t … 5000 t + 4999` of their
arrays: row `p` of a block is row `5000 t + p` of the array. This is a fact about the windows alone, whatever the
array holds, so it is stated for an arbitrary array first.
-/

noncomputable section

namespace Cert.GatedFusion.Kern

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- Entry `(p, k)` of window 0's block at point `t` sits at `(5000 t + p, k)` of its array. -/
theorem emb0 (t : Fin cfg0.N) (p : Fin 5000) (k : Fin 64) (r : Fin 100000) (hr : r.val = 5000 * t.val + p.val) :
    ((cfg0.win 0).blk t).view.emb (ix2 p k) = (ix2 r k : S100000x64.Idx) := by
  obtain ⟨e0, e1, -, -, -, -, -, -, -, -⟩ := idx_rows t
  funext a
  apply Fin.ext
  match a with
  | ⟨0, _⟩ => show win0_0.index t 0 * 5000 + 1 * p.val = r.val; rw [e0, hr]; omega
  | ⟨1, _⟩ => show win0_0.index t 1 * 64 + 1 * k.val = k.val; rw [e1]; omega

/-- So the block of any `[100000, 64]` array read through window 0 at point `t` holds, at `(p, k)`, the array's entry
    `(5000 t + p, k)`. -/
theorem read0 (A : S100000x64.Idx → EReal) (t : Fin cfg0.N) (p : Fin 5000) (k : Fin 64) (r : Fin 100000)
    (hr : r.val = 5000 * t.val + p.val) :
    (((cfg0.win 0).blk t).view.read (Elt Ideal) A : Vec Ideal S5000x64 .f32) (ix2 p k) = A (ix2 r k) := by
  rw [View.read_apply, emb0 t p k r hr]
  rfl

/-- Entry `(p, 0)` of window 1's block at point `t` sits at `(5000 t + p, 0)` of its array. -/
theorem emb1 (t : Fin cfg0.N) (p : Fin 5000) (r : Fin 100000) (hr : r.val = 5000 * t.val + p.val) :
    ((cfg0.win 1).blk t).view.emb (ix2 p (0 : Fin 1)) = (ix2 r (0 : Fin 1) : S100000x1.Idx) := by
  obtain ⟨-, -, e0, e1, -, -, -, -, -, -⟩ := idx_rows t
  funext a
  apply Fin.ext
  match a with
  | ⟨0, _⟩ => show win0_1.index t 0 * 5000 + 1 * p.val = r.val; rw [e0, hr]; omega
  | ⟨1, _⟩ => show win0_1.index t 1 * 1 + 1 * 0 = 0; rw [e1]

/-- So the block of any `[100000, 1]` column read through window 1 at point `t` holds, at row `p`, the column's
    entry `5000 t + p`. -/
theorem read1 (A : S100000x1.Idx → EReal) (t : Fin cfg0.N) (p : Fin 5000) (r : Fin 100000)
    (hr : r.val = 5000 * t.val + p.val) :
    (((cfg0.win 1).blk t).view.read (Elt Ideal) A : Vec Ideal S5000x1 .f32) (ix2 p (0 : Fin 1)) = A (ix2 r (0 : Fin 1)) := by
  rw [View.read_apply, emb1 t p r hr]
  rfl

/-- Entry `(p, k)` of window 2's block at point `t` sits at `(5000 t + p, k)` of its array. -/
theorem emb2 (t : Fin cfg0.N) (p : Fin 5000) (k : Fin 64) (r : Fin 100000) (hr : r.val = 5000 * t.val + p.val) :
    ((cfg0.win 2).blk t).view.emb (ix2 p k) = (ix2 r k : S100000x64.Idx) := by
  obtain ⟨-, -, -, -, e0, e1, -, -, -, -⟩ := idx_rows t
  funext a
  apply Fin.ext
  match a with
  | ⟨0, _⟩ => show win0_2.index t 0 * 5000 + 1 * p.val = r.val; rw [e0, hr]; omega
  | ⟨1, _⟩ => show win0_2.index t 1 * 64 + 1 * k.val = k.val; rw [e1]; omega

/-- So the block of any `[100000, 64]` array read through window 2 at point `t` holds, at `(p, k)`, the array's entry
    `(5000 t + p, k)`. -/
theorem read2 (A : S100000x64.Idx → EReal) (t : Fin cfg0.N) (p : Fin 5000) (k : Fin 64) (r : Fin 100000)
    (hr : r.val = 5000 * t.val + p.val) :
    (((cfg0.win 2).blk t).view.read (Elt Ideal) A : Vec Ideal S5000x64 .f32) (ix2 p k) = A (ix2 r k) := by
  rw [View.read_apply, emb2 t p k r hr]
  rfl

/-- Entry `(p, 0)` of window 3's block at point `t` sits at `(5000 t + p, 0)` of its array. -/
theorem emb3 (t : Fin cfg0.N) (p : Fin 5000) (r : Fin 100000) (hr : r.val = 5000 * t.val + p.val) :
    ((cfg0.win 3).blk t).view.emb (ix2 p (0 : Fin 1)) = (ix2 r (0 : Fin 1) : S100000x1.Idx) := by
  obtain ⟨-, -, -, -, -, -, e0, e1, -, -⟩ := idx_rows t
  funext a
  apply Fin.ext
  match a with
  | ⟨0, _⟩ => show win0_3.index t 0 * 5000 + 1 * p.val = r.val; rw [e0, hr]; omega
  | ⟨1, _⟩ => show win0_3.index t 1 * 1 + 1 * 0 = 0; rw [e1]

/-- So the block of any `[100000, 1]` column read through window 3 at point `t` holds, at row `p`, the column's
    entry `5000 t + p`. -/
theorem read3 (A : S100000x1.Idx → EReal) (t : Fin cfg0.N) (p : Fin 5000) (r : Fin 100000)
    (hr : r.val = 5000 * t.val + p.val) :
    (((cfg0.win 3).blk t).view.read (Elt Ideal) A : Vec Ideal S5000x1 .f32) (ix2 p (0 : Fin 1)) = A (ix2 r (0 : Fin 1)) := by
  rw [View.read_apply, emb3 t p r hr]
  rfl

/-- Entry `(p, q)` of the result window's block at point `t` sits at `(5000 t + p, q)` of the result array. -/
theorem emb11 (t : Fin cfg0.N) (p : Fin 5000) (q : Fin 64) (r : Fin 100000) (hr : r.val = 5000 * t.val + p.val) :
    ((cfg0.win 11).blk t).view.emb (ix2 p q) = (ix2 r q : S100000x64.Idx) := by
  obtain ⟨-, -, -, -, -, -, -, -, e0, e1⟩ := idx_rows t
  funext a
  apply Fin.ext
  match a with
  | ⟨0, _⟩ => show win0_11.index t 0 * 5000 + 1 * p.val = r.val; rw [e0, hr]; omega
  | ⟨1, _⟩ => show win0_11.index t 1 * 64 + 1 * q.val = q.val; rw [e1]; omega

/-- So block `t` of any `[100000, 64]` array read through the result window holds, at `(p, q)`, the array's entry
    `(5000 t + p, q)`. -/
theorem read11 (A : S100000x64.Idx → EReal) (t : Fin cfg0.N) (p : Fin 5000) (q : Fin 64) (r : Fin 100000)
    (hr : r.val = 5000 * t.val + p.val) :
    (((cfg0.win 11).blk t).view.read (Elt Ideal) A : Vec Ideal S5000x64 .f32) (ix2 p q) = A (ix2 r q) := by
  rw [View.read_apply, emb11 t p q r hr]
  rfl

/-- Row `p` of the first scale's block of sums at point `t` is row `5000 t + p` of the array. -/
theorem sums1_apply (c : Dev nD) (t : Fin cfg0.N) (p : Fin 5000) (k : Fin 64) (r : Fin 100000) (hr : r.val = 5000 * t.val + p.val) :
    (iblk m c 0 t : Vec Ideal S5000x64 .f32) (ix2 p k) = (V m c main_v17 : S100000x64.Idx → EReal) (ix2 r k) :=
  read0 (V m c main_v17 : S100000x64.Idx → EReal) t p k r hr

/-- Row `p` of the first scale's block of counts at point `t` is row `5000 t + p` of the array. -/
theorem cnts1_apply (c : Dev nD) (t : Fin cfg0.N) (p : Fin 5000) (r : Fin 100000) (hr : r.val = 5000 * t.val + p.val) :
    (iblk m c 1 t : Vec Ideal S5000x1 .f32) (ix2 p (0 : Fin 1)) = (V m c main_v21 : S100000x1.Idx → EReal) (ix2 r (0 : Fin 1)) :=
  read1 (V m c main_v21 : S100000x1.Idx → EReal) t p r hr

/-- Row `p` of the second scale's block of sums at point `t` is row `5000 t + p` of the array. -/
theorem sums2_apply (c : Dev nD) (t : Fin cfg0.N) (p : Fin 5000) (k : Fin 64) (r : Fin 100000) (hr : r.val = 5000 * t.val + p.val) :
    (iblk m c 2 t : Vec Ideal S5000x64 .f32) (ix2 p k) = (V m c main_v31 : S100000x64.Idx → EReal) (ix2 r k) :=
  read2 (V m c main_v31 : S100000x64.Idx → EReal) t p k r hr

/-- Row `p` of the second scale's block of counts at point `t` is row `5000 t + p` of the array. -/
theorem cnts2_apply (c : Dev nD) (t : Fin cfg0.N) (p : Fin 5000) (r : Fin 100000) (hr : r.val = 5000 * t.val + p.val) :
    (iblk m c 3 t : Vec Ideal S5000x1 .f32) (ix2 p (0 : Fin 1)) = (V m c main_v35 : S100000x1.Idx → EReal) (ix2 r (0 : Fin 1)) :=
  read3 (V m c main_v35 : S100000x1.Idx → EReal) t p r hr

end Cert.GatedFusion.Kern

end
-- ==== Proof.KernelHostOperands.lean ====
import proofs.«157027_j5222680232055_1_alg».proof.Proof.Gen.KernelIdeal.Frame
import Idealize.ShloMosaic.Lib.Pipeline.Value
import Idealize.ShloMosaic.Lib.ValueIdx
import Idealize.ShloMosaic.Lib.StableHlo.Run
import Idealize.ShloMosaic.Lib.Tactic

/-!
# The weight arrays the program prepares before the kernel starts

Each bias is its `[64]` argument reshaped to a `[1, 64]` row, and the gate weight's two halves are the column slices
`0 … 63` and `64 … 127` of the `[64, 128]` argument.
-/

noncomputable section

namespace Cert.GatedFusion.Kern

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- The first scale's bias as the region finds it: the `[64]` argument reshaped to a row. -/
theorem V_bias1 (c : Dev nD) : (V m c main_v36 : S1x64.Idx → EReal)
    = shapeCast S1x64 (m ((c : Thread nD τ).loc main_arg3) : S64.Idx → EReal) shapeCasts_S64_S1x64 := by
  dsimp only [Gen.V, Gen.hostOps0]; after_results; rfl

/-- The second scale's bias as the region finds it: the `[64]` argument reshaped to a row. -/
theorem V_bias2 (c : Dev nD) : (V m c main_v37 : S1x64.Idx → EReal)
    = shapeCast S1x64 (m ((c : Thread nD τ).loc main_arg5) : S64.Idx → EReal) shapeCasts_S64_S1x64 := by
  dsimp only [Gen.V, Gen.hostOps0]; after_results; rfl

/-- The gate bias as the region finds it: the `[64]` argument reshaped to a row. -/
theorem V_gateBias (c : Dev nD) : (V m c main_v38 : S1x64.Idx → EReal)
    = shapeCast S1x64 (m ((c : Thread nD τ).loc main_arg7) : S64.Idx → EReal) shapeCasts_S64_S1x64 := by
  dsimp only [Gen.V, Gen.hostOps0]; after_results; rfl

/-- The gate weight's left half as the region finds it: columns `0 … 63` of the `[64, 128]` argument. -/
theorem V_gateLeft (c : Dev nD) : (V m c main_v39 : S64x64.Idx → EReal)
    = extractStridedSlice S64x64 ![0, 0] (m ((c : Thread nD τ).loc main_arg6) : S64x128.Idx → EReal) slices_S64x128_S64x64_0_0 := by
  dsimp only [Gen.V, Gen.hostOps0]; after_results

/-- The gate weight's right half as the region finds it: columns `64 … 127` of the `[64, 128]` argument. -/
theorem V_gateRight (c : Dev nD) : (V m c main_v40 : S64x64.Idx → EReal)
    = extractStridedSlice S64x64 ![0, 64] (m ((c : Thread nD τ).loc main_arg6) : S64x128.Idx → EReal) slices_S64x128_S64x64_0_64 := by
  dsimp only [Gen.V, Gen.hostOps0]; after_results

end Cert.GatedFusion.Kern

end
-- ==== Proof.KernelWeights.lean ====
import proofs.«157027_j5222680232055_1_alg».proof.Proof.Gen.KernelIdeal.Frame
import proofs.«157027_j5222680232055_1_alg».proof.Proof.KernelIndex
import proofs.«157027_j5222680232055_1_alg».proof.Proof.KernelHostOperands
import Idealize.ShloMosaic.Lib.Pipeline.Value
import Idealize.ShloMosaic.Lib.ValueIdx
import Idealize.ShloMosaic.Lib.StableHlo.Run
import Idealize.ShloMosaic.Lib.Tactic

/-!
# The weight blocks as entries of the arguments

Every weight window holds its whole array at every grid point. The two `[64, 64]` weights are arguments as they are; a
bias row `[1, 64]` at column `j` is the `[64]` argument's entry `j`; the gate weight's left and right halves at `(j, k)`
are the `[64, 128]` argument at `(j, k)` and `(j, 64 + k)`.
-/

noncomputable section

namespace Cert.GatedFusion.Kern

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- The first scale's weight block is the `[64, 64]` argument. -/
theorem w1_apply (c : Dev nD) (t : Fin cfg0.N) (j k : Fin 64) :
    (iblk m c 4 t : Vec Ideal S64x64 .f32) (ix2 j k) = (m ((c : Thread nD τ).loc main_arg2) : S64x64.Idx → EReal) (ix2 j k) := by
  obtain ⟨e0, e1, -, -, -, -, -, -, -, -, -, -, -, -⟩ := idx_whole t
  unfold iblk
  rw [View.read_apply]
  show V m c main_arg2 _ = _
  rw [V_main_arg2]
  congr 1
  funext a
  apply Fin.ext
  match a with
  | ⟨0, _⟩ => show win0_4.index t 0 * 64 + 1 * j.val = j.val; rw [e0]; omega
  | ⟨1, _⟩ => show win0_4.index t 1 * 64 + 1 * k.val = k.val; rw [e1]; omega

/-- The second scale's weight block is the `[64, 64]` argument. -/
theorem w2_apply (c : Dev nD) (t : Fin cfg0.N) (j k : Fin 64) :
    (iblk m c 6 t : Vec Ideal S64x64 .f32) (ix2 j k) = (m ((c : Thread nD τ).loc main_arg4) : S64x64.Idx → EReal) (ix2 j k) := by
  obtain ⟨-, -, -, -, e0, e1, -, -, -, -, -, -, -, -⟩ := idx_whole t
  unfold iblk
  rw [View.read_apply]
  show V m c main_arg4 _ = _
  rw [V_main_arg4]
  congr 1
  funext a
  apply Fin.ext
  match a with
  | ⟨0, _⟩ => show win0_6.index t 0 * 64 + 1 * j.val = j.val; rw [e0]; omega
  | ⟨1, _⟩ => show win0_6.index t 1 * 64 + 1 * k.val = k.val; rw [e1]; omega

/-- The first scale's bias block at column `j` is the argument's entry `j`. -/
theorem b1_apply (c : Dev nD) (t : Fin cfg0.N) (j : Fin 64) :
    (iblk m c 5 t : Vec Ideal S1x64 .f32) (ix2 (0 : Fin 1) j) = (m ((c : Thread nD τ).loc main_arg3) : S64.Idx → EReal) (ix1 j) := by
  obtain ⟨-, -, e0, e1, -, -, -, -, -, -, -, -, -, -⟩ := idx_whole t
  unfold iblk
  rw [View.read_apply]
  show (V m c main_v36 : S1x64.Idx → EReal) _ = _
  rw [V_bias1]
  refine shapeCast_apply _ shapeCasts_S64_S1x64 _ (ix1 j) ?_
  rw [Shape.rowMajor_val_one, Shape.rowMajor_val_two]
  show j.val = (win0_5.index t 0 * 1 + 1 * 0) * 64 + (win0_5.index t 1 * 64 + 1 * j.val)
  rw [e0, e1]
  omega

/-- The second scale's bias block at column `j` is the argument's entry `j`. -/
theorem b2_apply (c : Dev nD) (t : Fin cfg0.N) (j : Fin 64) :
    (iblk m c 7 t : Vec Ideal S1x64 .f32) (ix2 (0 : Fin 1) j) = (m ((c : Thread nD τ).loc main_arg5) : S64.Idx → EReal) (ix1 j) := by
  obtain ⟨-, -, -, -, -, -, e0, e1, -, -, -, -, -, -⟩ := idx_whole t
  unfold iblk
  rw [View.read_apply]
  show (V m c main_v37 : S1x64.Idx → EReal) _ = _
  rw [V_bias2]
  refine shapeCast_apply _ shapeCasts_S64_S1x64 _ (ix1 j) ?_
  rw [Shape.rowMajor_val_one, Shape.rowMajor_val_two]
  show j.val = (win0_7.index t 0 * 1 + 1 * 0) * 64 + (win0_7.index t 1 * 64 + 1 * j.val)
  rw [e0, e1]
  omega

/-- The gate bias block at column `j` is the argument's entry `j`. -/
theorem bg_apply (c : Dev nD) (t : Fin cfg0.N) (j : Fin 64) :
    (iblk m c 10 t : Vec Ideal S1x64 .f32) (ix2 (0 : Fin 1) j) = (m ((c : Thread nD τ).loc main_arg7) : S64.Idx → EReal) (ix1 j) := by
  obtain ⟨-, -, -, -, -, -, -, -, -, -, -, -, e0, e1⟩ := idx_whole t
  unfold iblk
  rw [View.read_apply]
  show (V m c main_v38 : S1x64.Idx → EReal) _ = _
  rw [V_gateBias]
  refine shapeCast_apply _ shapeCasts_S64_S1x64 _ (ix1 j) ?_
  rw [Shape.rowMajor_val_one, Shape.rowMajor_val_two]
  show j.val = (win0_10.index t 0 * 1 + 1 * 0) * 64 + (win0_10.index t 1 * 64 + 1 * j.val)
  rw [e0, e1]
  omega

/-- The left half's block at `(j, k)` is the gate weight at `(j, k)`. -/
theorem wgL_apply (c : Dev nD) (t : Fin cfg0.N) (j k : Fin 64) :
    (iblk m c 8 t : Vec Ideal S64x64 .f32) (ix2 j k)
      = (m ((c : Thread nD τ).loc main_arg6) : S64x128.Idx → EReal) (ix2 j (⟨k.val, by omega⟩ : Fin 128)) := by
  obtain ⟨-, -, -, -, -, -, -, -, e0, e1, -, -, -, -⟩ := idx_whole t
  unfold iblk
  rw [View.read_apply]
  show (V m c main_v39 : S64x64.Idx → EReal) _ = _
  rw [V_gateLeft]
  refine extractStridedSlice_apply (s := S64x128) (t := S64x64) ![0, 0] _ slices_S64x128_S64x64_0_0 _ _ fun a => ?_
  match a with
  | ⟨0, _⟩ => show j.val = 0 + (win0_8.index t 0 * 64 + 1 * j.val); rw [e0]; omega
  | ⟨1, _⟩ => show k.val = 0 + (win0_8.index t 1 * 64 + 1 * k.val); rw [e1]; omega

/-- The right half's block at `(j, k)` is the gate weight at `(j, 64 + k)`. -/
theorem wgR_apply (c : Dev nD) (t : Fin cfg0.N) (j k : Fin 64) :
    (iblk m c 9 t : Vec Ideal S64x64 .f32) (ix2 j k)
      = (m ((c : Thread nD τ).loc main_arg6) : S64x128.Idx → EReal) (ix2 j (⟨64 + k.val, by omega⟩ : Fin 128)) := by
  obtain ⟨-, -, -, -, -, -, -, -, -, -, e0, e1, -, -⟩ := idx_whole t
  unfold iblk
  rw [View.read_apply]
  show (V m c main_v40 : S64x64.Idx → EReal) _ = _
  rw [V_gateRight]
  refine extractStridedSlice_apply (s := S64x128) (t := S64x64) ![0, 64] _ slices_S64x128_S64x64_0_64 _ _ fun a => ?_
  match a with
  | ⟨0, _⟩ => show j.val = 0 + (win0_9.index t 0 * 64 + 1 * j.val); rw [e0]; omega
  | ⟨1, _⟩ => show 64 + k.val = 64 + (win0_9.index t 1 * 64 + 1 * k.val); rw [e1]; omega

end Cert.GatedFusion.Kern

end
-- ==== Proof.KernelBlocks.lean ====
import proofs.«157027_j5222680232055_1_alg».proof.Proof.Gen.KernelIdeal.Value
import proofs.«157027_j5222680232055_1_alg».proof.Proof.KernelEntry
import proofs.«157027_j5222680232055_1_alg».proof.Proof.KernelRows
import proofs.«157027_j5222680232055_1_alg».proof.Proof.KernelWeights

/-!
# From the kernel's blocks to its result array

What grid point `t` writes back is rows `5000 t … 5000 t + 4999` of `fused` of the sums and counts as the kernel finds
them and of the weight arguments: entry `(p, q)` of the body's store is `fusedEntry` of row `p` of the blocks, and row `p` of
a block is row `5000 t + p` of its array. The 20 blocks cover the `[100000, 64]` result, so after the run the result array
is `fused` of those arrays.
-/

noncomputable section

namespace Cert.GatedFusion.Kern

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The kernel's result: `fused` of the two scales' sums and counts, as the program computed them before the kernel
    starts, and of the weight arguments. -/
def result (c : Dev nD) : S100000x64.Idx → EReal :=
  fused (M := 100000) (V m c main_v17 : S100000x64.Idx → EReal) (V m c main_v21 : S100000x1.Idx → EReal)
    (V m c main_v31 : S100000x64.Idx → EReal) (V m c main_v35 : S100000x1.Idx → EReal)
    (m ((c : Thread nD τ).loc main_arg2) : S64x64.Idx → EReal) (m ((c : Thread nD τ).loc main_arg3) : S64.Idx → EReal)
    (m ((c : Thread nD τ).loc main_arg4) : S64x64.Idx → EReal) (m ((c : Thread nD τ).loc main_arg5) : S64.Idx → EReal)
    (m ((c : Thread nD τ).loc main_arg6) : S64x128.Idx → EReal) (m ((c : Thread nD τ).loc main_arg7) : S64.Idx → EReal)

/-- Entry `(p, q)` of what point `t` stores is entry `(5000 t + p, q)` of `result`. -/
theorem stored_entry (c : Dev nD) (t : Fin cfg0.N) (p : Fin 5000) (q : Fin 64) (r : Fin 100000) (hr : r.val = 5000 * t.val + p.val) :
    k0_pay1 (F := Ideal) (k0_pay2 (iblk m c 0 t) (iblk m c 1 t) (iblk m c 4 t) (iblk m c 5 t))
        (k0_pay3 (iblk m c 2 t) (iblk m c 3 t) (iblk m c 6 t) (iblk m c 7 t))
        (k0_pay4 (iblk m c 0 t) (iblk m c 1 t) (iblk m c 4 t) (iblk m c 5 t))
        (k0_pay5 (iblk m c 2 t) (iblk m c 3 t) (iblk m c 6 t) (iblk m c 7 t))
        (iblk m c 8 t) (iblk m c 9 t) (iblk m c 10 t) (ix2 p q)
      = result m c (ix2 r q) := by
  refine (body_entry (iblk m c 0 t) (iblk m c 1 t) (iblk m c 2 t) (iblk m c 3 t) (iblk m c 4 t) (iblk m c 5 t) (iblk m c 6 t)
    (iblk m c 7 t) (iblk m c 8 t) (iblk m c 9 t) (iblk m c 10 t) p q).trans ?_
  unfold result fused
  exact fusedEntry_congr (fun k => sums1_apply m c t p k r hr) (cnts1_apply m c t p r hr)
    (fun k => sums2_apply m c t p k r hr) (cnts2_apply m c t p r hr)
    (fun j k => w1_apply m c t j k) (fun j => b1_apply m c t j) (fun j k => w2_apply m c t j k) (fun j => b2_apply m c t j)
    (fun j k => wgL_apply m c t j k) (fun j k => wgR_apply m c t j k) (fun j => bg_apply m c t j) rfl

/-- WHAT POINT `t` WRITES BACK is block `t` of `result`. -/
theorem flushed_eq (c : Dev nD) (t : Fin cfg0.N) :
    (dats m 0 c).flushed 11 t = ((cfg0.win 11).blk t).view.read (Elt Ideal) (result m c) := by
  rw [Cert.KernelIdeal.Value.flushed11]
  unfold out0_11
  rw [View.canon_unit_zero hz]
  simp only [View.ld_unit_zero (S := S5000x64) hz, View.ld_unit_zero (S := S5000x1) hz, View.ld_unit_zero (S := S64x64) hz,
    View.ld_unit_zero (S := S1x64) hz]
  funext y
  obtain ⟨p, q, rfl⟩ : ∃ (p : Fin 5000) (q : Fin 64), y = ix2 p q := ⟨y 0, y 1, eq_ix2 y⟩
  have hN : cfg0.N = 20 := N_0
  have hr : 5000 * t.val + p.val < 100000 := by have := t.isLt; omega
  refine Eq.trans ?_ (read11 (result m c) t p q ⟨5000 * t.val + p.val, hr⟩ rfl).symm
  exact stored_entry m c t p q ⟨5000 * t.val + p.val, hr⟩ rfl

/-- The 20 blocks cover the result array, so after the run it is `result`. -/
theorem final (c : Dev nD) : (dats m 0 c).arrAt 11 cfg0.N = result m c :=
  (dats m 0 c).arrAt_eq_of_cover 11 (result m c) (fun t _ => flushed_eq m c t) fun i => by
    have hi0 : (i 0).val < 100000 := (i 0).isLt
    have hi1 : (i 1).val < 64 := (i 1).isLt
    have hN : cfg0.N = 20 := N_0
    have ht : (i 0).val / 5000 < cfg0.N := by rw [hN]; omega
    obtain ⟨-, -, -, -, -, -, -, -, e0, e1⟩ := idx_rows ⟨(i 0).val / 5000, ht⟩
    refine ⟨⟨(i 0).val / 5000, ht⟩, flush0_11 _, ?_⟩
    show i ∈ ((View.whole main_v41).slice (win0_11.rect ⟨(i 0).val / 5000, ht⟩)).set
    rw [View.set_slice_whole, Rect.mem_set_unit]
    intro a
    match a with
    | ⟨0, _⟩ =>
      show win0_11.index ⟨(i 0).val / 5000, ht⟩ 0 * 5000 ≤ (i 0).val
        ∧ (i 0).val < win0_11.index ⟨(i 0).val / 5000, ht⟩ 0 * 5000 + 5000
      rw [e0]
      show (i 0).val / 5000 * 5000 ≤ (i 0).val ∧ (i 0).val < (i 0).val / 5000 * 5000 + 5000
      omega
    | ⟨1, _⟩ =>
      show win0_11.index ⟨(i 0).val / 5000, ht⟩ 1 * 64 ≤ (i 1).val
        ∧ (i 1).val < win0_11.index ⟨(i 0).val / 5000, ht⟩ 1 * 64 + 64
      rw [e1]
      omega

/-- The kernel's run: every weakly fair execution terminates with the result array at `result` and the arguments
    unchanged. -/
theorem run : θ_run defs (onTc (τ := τ) (main (F := Ideal))) ⟨m, fun _ => 0, ρ⟩ fun r => ∀ c : Dev nD,
      r.2.mem ((c : Thread nD τ).loc main_v41) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun _ h c => ⟨(h c).1.trans (final m c), (h c).2⟩) (Cert.KernelIdeal.Value.run_blocks m ρ)

end Cert.GatedFusion.Kern

end
-- ==== Proof.KernelAggregates.lean ====
import proofs.«157027_j5222680232055_1_alg».proof.Proof.Gen.KernelIdeal.Frame
import proofs.«157027_j5222680232055_1_alg».proof.Proof.Gen.ReferenceIdeal.Read
import Idealize.ShloMosaic.Lib.StableHlo.Run
import Idealize.ShloMosaic.Lib.Tactic

/-!
# The aggregated sums and counts are the same functions of the inputs in both programs

Before its kernel starts, the kernel's program gathers the target nodes' feature rows and scatter-adds them (and a column
of ones) onto the source nodes, once over the first 400000 edges and once over all 800000: operation for operation the
reference's own aggregation. So the four arrays the kernel finds are the reference's four stages of the same inputs, and
neither side ever has to say what a gather or a scatter-add computes.
-/

noncomputable section

namespace Cert.GatedFusion.Kern

open Cert.KernelIdeal Cert.KernelIdeal.Gen Idealize.ShloMosaic Idealize.ShloMosaic.TcCoe Idealize.SL.Sem

variable (m : (ℓ : Loc nD τ sig) → Buf (Elt Ideal) ℓ)

set_option maxHeartbeats 4000000 in
/-- The first scale's neighbour sums as the kernel finds them. -/
theorem V_sums1 (c : Dev nD) : (V m c main_v17 : S100000x64.Idx → EReal)
    = Cert.ReferenceIdeal.Read.val_main_v13 (F := Ideal) (m ((c : Thread nD τ).loc main_arg0) : S100000x64.Idx → EReal)
        (m ((c : Thread nD τ).loc main_arg1) : S2x800000.Idx → BitVec 32) := by
  dsimp only [Gen.V, Gen.hostOps0]; after_results; rfl

set_option maxHeartbeats 4000000 in
/-- The first scale's neighbour counts as the kernel finds them. -/
theorem V_cnts1 (c : Dev nD) : (V m c main_v21 : S100000x1.Idx → EReal)
    = Cert.ReferenceIdeal.Read.val_main_v17 (F := Ideal) (m ((c : Thread nD τ).loc main_arg1) : S2x800000.Idx → BitVec 32) := by
  dsimp only [Gen.V, Gen.hostOps0]; after_results; rfl

set_option maxHeartbeats 4000000 in
/-- The second scale's neighbour sums as the kernel finds them. -/
theorem V_sums2 (c : Dev nD) : (V m c main_v31 : S100000x64.Idx → EReal)
    = Cert.ReferenceIdeal.Read.val_main_v40 (F := Ideal) (m ((c : Thread nD τ).loc main_arg0) : S100000x64.Idx → EReal)
        (m ((c : Thread nD τ).loc main_arg1) : S2x800000.Idx → BitVec 32) := by
  dsimp only [Gen.V, Gen.hostOps0]; after_results; rfl

set_option maxHeartbeats 4000000 in
/-- The second scale's neighbour counts as the kernel finds them. -/
theorem V_cnts2 (c : Dev nD) : (V m c main_v35 : S100000x1.Idx → EReal)
    = Cert.ReferenceIdeal.Read.val_main_v44 (F := Ideal) (m ((c : Thread nD τ).loc main_arg1) : S2x800000.Idx → BitVec 32) := by
  dsimp only [Gen.V, Gen.hostOps0]; after_results; rfl

end Cert.GatedFusion.Kern

end
-- ==== Proof.RefValue.lean ====
import proofs.«157027_j5222680232055_1_alg».proof.Proof.Gen.ReferenceIdeal.Read
import proofs.«157027_j5222680232055_1_alg».proof.Proof.Spec
import Idealize.ShloMosaic.Lib.ValueIdx
import Idealize.ShloMosaic.Lib.Pipeline.Value
import Idealize.ShloMosaic.PureOps.Ideal.Laws
import Idealize.ShloMosaic.Lib.IdealHost

/-!
# The reference's result, one entry at a time

The reference computes, for each node r and output column q: the two scales' dense outputs o₁[r, q] and o₂[r, q] from
the neighbour sums and counts, the gate's argument as one contraction over the 128 columns of the concatenation
[o₁ | o₂], the logistic function of it, and the convex combination of o₁[r, q] and o₂[r, q] under that gate. Each
stage is read at the entry (r, q); the contraction over 128 columns splits into its two halves, the first reading o₁
and the second o₂. The neighbour sums and counts themselves stay unnamed functions of the inputs.
-/

noncomputable section

namespace Cert.GatedFusion.Ref

open Idealize.ShloMosaic Idealize.ShloMosaic.ValueIdx
open Cert.ReferenceIdeal Cert.ReferenceIdeal.Read

/-! ## The two scales' dense outputs at an entry -/

/-- The first scale's dense output at (r, q): the mean of row r of the neighbour sums against row q of the weight,
    plus the bias at q. -/
theorem o1_entry (x0 : (⟨S100000x64, .f32⟩ : BufTy).Contents (Elt Ideal)) (x1 : (⟨S2x800000, .i32⟩ : BufTy).Contents (Elt Ideal))
    (x2 : (⟨S64x64, .f32⟩ : BufTy).Contents (Elt Ideal)) (x3 : (⟨S64, .f32⟩ : BufTy).Contents (Elt Ideal))
    (r : Fin 100000) (q : Fin 64) :
    val_main_v26 (F := Ideal) x0 x1 x2 x3 (ix2 r q)
      = dense (meanRow (fun k => val_main_v13 (F := Ideal) x0 x1 (ix2 r k)) (val_main_v17 (F := Ideal) x1 (ix2 r (0 : Fin 1))))
          (fun j k => x2 (ix2 j k)) (fun j => x3 (ix1 j)) q := by
  rw [val_main_v26_apply, val_main_v23_apply, val_main_v25_apply, val_main_v24_apply]
  unfold dense meanRow
  rw [Ideal.addf_def]
  refine congrArg₂ (· + ·) ?_ ?_
  · refine Finset.sum_congr rfl fun k _ => ?_
    rw [val_main_v21_apply, val_main_v22_apply, val_main_v20_apply, val_main_v19_apply, val_main_v18_apply,
      val_main_cst_3_apply]
    have e1 : lidx_main_v23 (ix2 r q) k = ix2 r k :=
      funext fun a => Fin.ext (by match a with | ⟨0, _⟩ => rfl | ⟨1, _⟩ => rfl)
    have e2 : idx_main_v20 (ix2 r k) = ix2 r (0 : Fin 1) :=
      funext fun a => Fin.ext (by match a with | ⟨0, _⟩ => rfl | ⟨1, _⟩ => rfl)
    have e3 : idx_main_v22 (ridx_main_v23 (ix2 r q) k) = ix2 q k :=
      funext fun a => Fin.ext (by match a with | ⟨0, _⟩ => rfl | ⟨1, _⟩ => rfl)
    rw [e1, e2, e3]
    rfl
  · have e4 : idx_main_v24 (idx_main_v25 (ix2 r q)) = ix1 q :=
      funext fun a => Fin.ext (by match a with | ⟨0, _⟩ => rfl)
    rw [e4]

/-- The second scale's dense output at (r, q), likewise. -/
theorem o2_entry (x0 : (⟨S100000x64, .f32⟩ : BufTy).Contents (Elt Ideal)) (x1 : (⟨S2x800000, .i32⟩ : BufTy).Contents (Elt Ideal))
    (x4 : (⟨S64x64, .f32⟩ : BufTy).Contents (Elt Ideal)) (x5 : (⟨S64, .f32⟩ : BufTy).Contents (Elt Ideal))
    (r : Fin 100000) (q : Fin 64) :
    val_main_v53 (F := Ideal) x0 x1 x4 x5 (ix2 r q)
      = dense (meanRow (fun k => val_main_v40 (F := Ideal) x0 x1 (ix2 r k)) (val_main_v44 (F := Ideal) x1 (ix2 r (0 : Fin 1))))
          (fun j k => x4 (ix2 j k)) (fun j => x5 (ix1 j)) q := by
  rw [val_main_v53_apply, val_main_v50_apply, val_main_v52_apply, val_main_v51_apply]
  unfold dense meanRow
  rw [Ideal.addf_def]
  refine congrArg₂ (· + ·) ?_ ?_
  · refine Finset.sum_congr rfl fun k _ => ?_
    rw [val_main_v48_apply, val_main_v49_apply, val_main_v47_apply, val_main_v46_apply, val_main_v45_apply,
      val_main_cst_9_apply]
    have e1 : lidx_main_v50 (ix2 r q) k = ix2 r k :=
      funext fun a => Fin.ext (by match a with | ⟨0, _⟩ => rfl | ⟨1, _⟩ => rfl)
    have e2 : idx_main_v47 (ix2 r k) = ix2 r (0 : Fin 1) :=
      funext fun a => Fin.ext (by match a with | ⟨0, _⟩ => rfl | ⟨1, _⟩ => rfl)
    have e3 : idx_main_v49 (ridx_main_v50 (ix2 r q) k) = ix2 q k :=
      funext fun a => Fin.ext (by match a with | ⟨0, _⟩ => rfl | ⟨1, _⟩ => rfl)
    rw [e1, e2, e3]
    rfl
  · have e4 : idx_main_v51 (idx_main_v52 (ix2 r q)) = ix1 q :=
      funext fun a => Fin.ext (by match a with | ⟨0, _⟩ => rfl)
    rw [e4]

/-! ## The concatenation's two halves -/

/-- A column among the first 64 of the concatenation reads the first scale's output. -/
theorem concat_left (x0 : (⟨S100000x64, .f32⟩ : BufTy).Contents (Elt Ideal)) (x1 : (⟨S2x800000, .i32⟩ : BufTy).Contents (Elt Ideal))
    (x2 : (⟨S64x64, .f32⟩ : BufTy).Contents (Elt Ideal)) (x3 : (⟨S64, .f32⟩ : BufTy).Contents (Elt Ideal))
    (x4 : (⟨S64x64, .f32⟩ : BufTy).Contents (Elt Ideal)) (x5 : (⟨S64, .f32⟩ : BufTy).Contents (Elt Ideal))
    (r : Fin 100000) (k : Fin 64) :
    val_main_v54 (F := Ideal) x0 x1 x2 x3 x4 x5 (ix2 r (⟨k.val, by omega⟩ : Fin 128))
      = val_main_v26 (F := Ideal) x0 x1 x2 x3 (ix2 r k) := by
  unfold val_main_v54
  exact concatenate_pair_apply_left (t := S100000x128) (s₁ := S100000x64) (s₂ := S100000x64) (1 : Fin S100000x128.rank) _ _ _ _ rfl (ix2 r k)
    (fun b => match b with | ⟨0, _⟩ => rfl | ⟨1, _⟩ => rfl)

/-- A column among the last 64 of the concatenation reads the second scale's output, 64 columns to the left. -/
theorem concat_right (x0 : (⟨S100000x64, .f32⟩ : BufTy).Contents (Elt Ideal)) (x1 : (⟨S2x800000, .i32⟩ : BufTy).Contents (Elt Ideal))
    (x2 : (⟨S64x64, .f32⟩ : BufTy).Contents (Elt Ideal)) (x3 : (⟨S64, .f32⟩ : BufTy).Contents (Elt Ideal))
    (x4 : (⟨S64x64, .f32⟩ : BufTy).Contents (Elt Ideal)) (x5 : (⟨S64, .f32⟩ : BufTy).Contents (Elt Ideal))
    (r : Fin 100000) (k : Fin 64) :
    val_main_v54 (F := Ideal) x0 x1 x2 x3 x4 x5 (ix2 r (⟨64 + k.val, by omega⟩ : Fin 128))
      = val_main_v53 (F := Ideal) x0 x1 x4 x5 (ix2 r k) := by
  unfold val_main_v54
  exact concatenate_pair_apply_right (t := S100000x128) (s₁ := S100000x64) (s₂ := S100000x64) (1 : Fin S100000x128.rank) _ _ _ _ rfl rfl (ix2 r k)
    (fun b => match b with
      | ⟨0, _⟩ => fun _ => rfl
      | ⟨1, _⟩ => fun hb => absurd rfl hb)
    (by show k.val + 64 = 64 + k.val; omega)

/-! ## The gate's argument -/

/-- The gate's argument at (r, q): the contraction over the 128 columns of [o₁ | o₂] against row q of the gate weight
    is the sum over its first 64 columns against o₁ plus the sum over its last 64 against o₂, plus the gate bias. -/
theorem gate_entry (x0 : (⟨S100000x64, .f32⟩ : BufTy).Contents (Elt Ideal)) (x1 : (⟨S2x800000, .i32⟩ : BufTy).Contents (Elt Ideal))
    (x2 : (⟨S64x64, .f32⟩ : BufTy).Contents (Elt Ideal)) (x3 : (⟨S64, .f32⟩ : BufTy).Contents (Elt Ideal))
    (x4 : (⟨S64x64, .f32⟩ : BufTy).Contents (Elt Ideal)) (x5 : (⟨S64, .f32⟩ : BufTy).Contents (Elt Ideal))
    (x6 : (⟨S64x128, .f32⟩ : BufTy).Contents (Elt Ideal)) (x7 : (⟨S64, .f32⟩ : BufTy).Contents (Elt Ideal))
    (r : Fin 100000) (q : Fin 64) :
    val_main_v59 (F := Ideal) x0 x1 x2 x3 x4 x5 x6 x7 (ix2 r q)
      = gateLogit (fun k => val_main_v26 (F := Ideal) x0 x1 x2 x3 (ix2 r k))
          (fun k => val_main_v53 (F := Ideal) x0 x1 x4 x5 (ix2 r k))
          (fun j k => x6 (ix2 j (⟨k.val, by omega⟩ : Fin 128)))
          (fun j k => x6 (ix2 j (⟨64 + k.val, by omega⟩ : Fin 128)))
          (fun j => x7 (ix1 j)) q := by
  rw [val_main_v59_apply, val_main_v56_apply, val_main_v58_apply, val_main_v57_apply, sum_halves]
  unfold gateLogit
  have e4 : idx_main_v57 (idx_main_v58 (ix2 r q)) = ix1 q :=
    funext fun a => Fin.ext (by match a with | ⟨0, _⟩ => rfl)
  rw [Ideal.addf_def, e4]
  refine congrArg₂ (· + ·) (congrArg₂ (· + ·) ?_ ?_) rfl
  · refine Finset.sum_congr rfl fun k _ => ?_
    have e1 : lidx_main_v56 (ix2 r q) (⟨k.val, by omega⟩ : Fin 128) = ix2 r (⟨k.val, by omega⟩ : Fin 128) :=
      funext fun a => Fin.ext (by match a with | ⟨0, _⟩ => rfl | ⟨1, _⟩ => rfl)
    have e3 : idx_main_v55 (ridx_main_v56 (ix2 r q) (⟨k.val, by omega⟩ : Fin 128)) = ix2 q (⟨k.val, by omega⟩ : Fin 128) :=
      funext fun a => Fin.ext (by match a with | ⟨0, _⟩ => rfl | ⟨1, _⟩ => rfl)
    rw [val_main_v55_apply, e1, e3, concat_left]
  · refine Finset.sum_congr rfl fun k _ => ?_
    have e1 : lidx_main_v56 (ix2 r q) (⟨64 + k.val, by omega⟩ : Fin 128) = ix2 r (⟨64 + k.val, by omega⟩ : Fin 128) :=
      funext fun a => Fin.ext (by match a with | ⟨0, _⟩ => rfl | ⟨1, _⟩ => rfl)
    have e3 : idx_main_v55 (ridx_main_v56 (ix2 r q) (⟨64 + k.val, by omega⟩ : Fin 128)) = ix2 q (⟨64 + k.val, by omega⟩ : Fin 128) :=
      funext fun a => Fin.ext (by match a with | ⟨0, _⟩ => rfl | ⟨1, _⟩ => rfl)
    rw [val_main_v55_apply, e1, e3, concat_right]

/-! ## The gate and the result -/

/-- The quotient 1 / (1 + exp (-z)), with both ones spelled as the float word of 1.0, is the logistic function. -/
theorem logistic_of_words (z : EReal) :
    Ideal.div (Ideal.ofBits .f32 0x3F800000#32) (Ideal.ofBits .f32 0x3F800000#32 + Ideal.exp (-z)) = Ideal.logistic z := by
  rw [Ideal.ofBits_one_f32]
  rfl

/-- The result at an entry: the two scales' outputs there blended under the logistic function of the gate's argument. -/
theorem out_entry (x0 : (⟨S100000x64, .f32⟩ : BufTy).Contents (Elt Ideal)) (x1 : (⟨S2x800000, .i32⟩ : BufTy).Contents (Elt Ideal))
    (x2 : (⟨S64x64, .f32⟩ : BufTy).Contents (Elt Ideal)) (x3 : (⟨S64, .f32⟩ : BufTy).Contents (Elt Ideal))
    (x4 : (⟨S64x64, .f32⟩ : BufTy).Contents (Elt Ideal)) (x5 : (⟨S64, .f32⟩ : BufTy).Contents (Elt Ideal))
    (x6 : (⟨S64x128, .f32⟩ : BufTy).Contents (Elt Ideal)) (x7 : (⟨S64, .f32⟩ : BufTy).Contents (Elt Ideal))
    (i : S100000x64.Idx) :
    val_main_v70 (F := Ideal) x0 x1 x2 x3 x4 x5 x6 x7 i
      = blend (Ideal.logistic (val_main_v59 (F := Ideal) x0 x1 x2 x3 x4 x5 x6 x7 i))
          (val_main_v26 (F := Ideal) x0 x1 x2 x3 i) (val_main_v53 (F := Ideal) x0 x1 x4 x5 i) := by
  rw [val_main_v70_apply, val_main_v66_apply, val_main_v69_apply, val_main_v68_apply, val_main_v65_apply,
    val_main_v63_apply, val_main_v61_apply, val_main_v60_apply, val_main_v64_apply, val_main_v62_apply,
    val_main_v67_apply, val_main_cst_10_apply, val_main_cst_11_apply, val_main_cst_12_apply]
  simp only [Ideal.addf_def, Ideal.mulf_def, Ideal.subf_def, Ideal.hostDivf_def, Ideal.hostUnary_exp_def,
    Ideal.hostNegf_def, Ideal.negf_def, Ideal.ofBits_def]
  rw [logistic_of_words]
  unfold blend oneW
  rfl

/-! ## The whole array -/

/-- THE REFERENCE'S RESULT is `fused` of its own four aggregated arrays and of the weights, entry by entry. -/
theorem reference_eq_fused (x0 : (⟨S100000x64, .f32⟩ : BufTy).Contents (Elt Ideal)) (x1 : (⟨S2x800000, .i32⟩ : BufTy).Contents (Elt Ideal)) (x2 : (⟨S64x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S64x128, .f32⟩ : BufTy).Contents (Elt Ideal)) (x7 : (⟨S64, .f32⟩ : BufTy).Contents (Elt Ideal)) :
    val_main_v70 (F := Ideal) x0 x1 x2 x3 x4 x5 x6 x7
      = Cert.GatedFusion.fused (M := 100000) (val_main_v13 (F := Ideal) x0 x1) (val_main_v17 (F := Ideal) x1) (val_main_v40 (F := Ideal) x0 x1) (val_main_v44 (F := Ideal) x1) x2 x3 x4 x5 x6 x7 := by
  funext i
  obtain ⟨r, q, rfl⟩ : ∃ (r : Fin 100000) (q : Fin 64), i = ValueIdx.ix2 r q := ⟨i 0, i 1, ValueIdx.eq_ix2 i⟩
  rw [out_entry, gate_entry, o1_entry, o2_entry]
  simp only [o1_entry, o2_entry]
  rfl

end Cert.GatedFusion.Ref

end
-- ==== Proof.lean ====
/-
  A gated fusion of two graph-convolution scales, as a Pallas kernel, against its jnp reference, over the extended reals.

  Both programs first aggregate, with the same host operations, each node's neighbour features and neighbour count over
  the first 400000 edges and over all 800000: four arrays `A₁, C₁, A₂, C₂`. From there the result at node `r`, column `q`
  is `fusedEntry` of row `r`: the means `Aₛ[r, ·] / (Cₛ[r] + ε)`, the dense layers `oₛ = meanₛ · Wₛᵀ + bₛ`, the gate
  `σ(o₁ · Wg[:, :64]ᵀ + o₂ · Wg[:, 64:]ᵀ + bg)` and the blend `gate · o₁ + (1 - gate) · o₂` (Proof/Spec.lean).
  The kernel does this on 20 blocks of 5000 rows, with the gate's argument as two contractions (Proof/KernelEntry.lean for one
  entry of the body; Proof/KernelRows.lean, Proof/KernelWeights.lean for the blocks as rows of the arrays; Proof/KernelBlocks.lean for
  the result array). The reference contracts the concatenation `[o₁ | o₂]` with `Wgᵀ` over 128 columns, which is the sum of
  the two contractions over 64, and spells the logistic function as `1 / (1 + exp (-z))` (Proof/RefValue.lean). The four
  aggregated arrays are never opened: they are the same functions of the inputs on both sides (Proof/KernelAggregates.lean).
  No law used here needs finite inputs: splitting a finite sum in two and reading a logistic function are valid on all
  extended reals, so the precondition is not opened. The ideal pass rewrote nothing, so `preserves` is trivial.
-/
import proofs.«157027_j5222680232055_1_alg».proof.Defs
import proofs.«157027_j5222680232055_1_alg».proof.Proof.Gen.Kernel
import proofs.«157027_j5222680232055_1_alg».proof.Proof.Gen.Kernel.Skeleton
import proofs.«157027_j5222680232055_1_alg».proof.Proof.Gen.Kernel.Launch
import proofs.«157027_j5222680232055_1_alg».proof.Proof.Gen.Kernel.Points
import proofs.«157027_j5222680232055_1_alg».proof.Proof.Gen.Kernel.Frame
import proofs.«157027_j5222680232055_1_alg».proof.Proof.Gen.KernelIdeal
import proofs.«157027_j5222680232055_1_alg».proof.Proof.Gen.KernelIdeal.Skeleton
import proofs.«157027_j5222680232055_1_alg».proof.Proof.Gen.KernelIdeal.Launch
import proofs.«157027_j5222680232055_1_alg».proof.Proof.Gen.KernelIdeal.Points
import proofs.«157027_j5222680232055_1_alg».proof.Proof.Gen.KernelIdeal.Frame
import proofs.«157027_j5222680232055_1_alg».proof.Proof.Gen.ReferenceIdeal
import proofs.«157027_j5222680232055_1_alg».proof.Proof.Gen.Pre_finite_inputs
import proofs.«157027_j5222680232055_1_alg».proof.Proof.Gen.KernelIdeal.Value
import proofs.«157027_j5222680232055_1_alg».proof.Proof.Gen.ReferenceIdeal.Run
import proofs.«157027_j5222680232055_1_alg».proof.Proof.Gen.ReferenceIdeal.Read
import proofs.«157027_j5222680232055_1_alg».proof.Proof.KernelBlocks
import proofs.«157027_j5222680232055_1_alg».proof.Proof.KernelAggregates
import proofs.«157027_j5222680232055_1_alg».proof.Proof.RefValue
import Idealize.ShloMosaic.Adequacy
import Idealize.ShloMosaic.Init

noncomputable section

namespace Cert.Proof

open Idealize.ShloMosaic Idealize.SL.Sem

/-- The kernel's program runs and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments as they were: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Run from inputs that agree, the kernel's program and the reference end with the same result array: `fused` of the
    four aggregated arrays and the weights. -/
theorem algebraic : Cert.algebraic_KernelIdeal_ReferenceIdeal := by
  intro m ρ m' ρ' _ hagree
  refine ⟨fun c => Cert.GatedFusion.Kern.result m c, Cert.GatedFusion.Kern.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7⟩ := hagree c
  rw [Cert.ReferenceIdeal.Read.val_main_v70_eq, Cert.GatedFusion.Ref.reference_eq_fused, h0, h1, h2, h3, h4, h5, h6, h7]
  show _ = Cert.GatedFusion.Kern.result m c
  unfold Cert.GatedFusion.Kern.result
  rw [Cert.GatedFusion.Kern.V_sums1 m c, Cert.GatedFusion.Kern.V_cnts1 m c, Cert.GatedFusion.Kern.V_sums2 m c,
    Cert.GatedFusion.Kern.V_cnts2 m c]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
